-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x8192 : Shape := ⟨3, ![32, 128, 8192]⟩
abbrev S512x128 : Shape := ⟨2, ![512, 128]⟩
abbrev S512 : Shape := ⟨1, ![512]⟩
abbrev S256x512 : Shape := ⟨2, ![256, 512]⟩
abbrev S_ : Shape := ⟨0, ![]⟩

class Facts : Prop where
  bcast_S_S32x128x8192 : S_.BroadcastsInDim S32x128x8192 (![] : Fin 0 → Fin S32x128x8192.rank)
  reducesTo_S32x128x8192_S_d0_1_2 : S32x128x8192.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S256x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  main_v23

def fn {F : FTy → Type} [FloatOps F] (main_arg0 : FVec F S32x128x8192 .f32) (main_arg1 : FVec F S512x128 .f32) (main_arg2 : FVec F S512 .f32) (main_arg3 : FVec F S512 .f32) (main_arg4 : FVec F S256x512 .f32) : IVec S_ 1 :=
  let main_v0 : FVec F S32x128x8192 .f32 := Host.absf main_arg0
  let main_cst : FVec F S_ .f32 := constant S_ .f32 0x7F800000#32
  let main_v1 : FVec F S32x128x8192 .f32 := broadcastInDim S32x128x8192 ![] bcast_S_S32x128x8192 main_cst
  let main_v2 : IVec S32x128x8192 1 := cmpf .olt main_v0 main_v1
  let main_c : IVec S_ 1 := constantI S_ 1 1#1
  let main_v3 : IVec S_ 1 := (fun x v => Host.reduce IntOp.andi x v reducesTo_S32x128x8192_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S32x128x8192 : Shape := ⟨3, ![32, 128, 8192]⟩
abbrev S512x128 : Shape := ⟨2, ![512, 128]⟩
abbrev S512 : Shape := ⟨1, ![512]⟩
abbrev S256x512 : Shape := ⟨2, ![256, 512]⟩
abbrev S8x128x128 : Shape := ⟨3, ![8, 128, 128]⟩
abbrev S8x128x1 : Shape := ⟨3, ![8, 128, 1]⟩
abbrev S4x128x8192 : Shape := ⟨3, ![4, 128, 8192]⟩
abbrev S1x128x128 : Shape := ⟨3, ![1, 128, 128]⟩
abbrev S1x128x1 : Shape := ⟨3, ![1, 128, 1]⟩
abbrev S128x128 : Shape := ⟨2, ![128, 128]⟩
abbrev S128x1 : Shape := ⟨2, ![128, 1]⟩
abbrev S1x128x8192 : Shape := ⟨3, ![1, 128, 8192]⟩
abbrev S128x8192 : Shape := ⟨2, ![128, 8192]⟩
abbrev S128 : Shape := ⟨1, ![128]⟩
abbrev S512x1 : Shape := ⟨2, ![512, 1]⟩
abbrev S32x256x8192 : Shape := ⟨3, ![32, 256, 8192]⟩
abbrev S1x256x8192 : Shape := ⟨3, ![1, 256, 8192]⟩
abbrev S512x8192 : Shape := ⟨2, ![512, 8192]⟩
abbrev S256x8192 : Shape := ⟨2, ![256, 8192]⟩

abbrev nBuf : Space → Nat
  | .hbm => 10
  | .vmem => 16
  | .smem => 0
  | _ => 0

abbrev bufTy : (tb : Table) → Fin (tcTables nBuf tb) → BufTy
  | .hbm, ⟨0, _⟩ => ⟨S32x128x8192, .f32⟩
  | .hbm, ⟨1, _⟩ => ⟨S512x128, .f32⟩
  | .hbm, ⟨2, _⟩ => ⟨S512, .f32⟩
  | .hbm, ⟨3, _⟩ => ⟨S512, .f32⟩
  | .hbm, ⟨4, _⟩ => ⟨S256x512, .f32⟩
  | .hbm, ⟨5, _⟩ => ⟨S8x128x128, .f32⟩
  | .hbm, ⟨6, _⟩ => ⟨S8x128x1, .f32⟩
  | .hbm, ⟨7, _⟩ => ⟨S512x1, .f32⟩
  | .hbm, ⟨8, _⟩ => ⟨S512x1, .f32⟩
  | .hbm, ⟨9, _⟩ => ⟨S32x256x8192, .f32⟩
  | .local _ .vmem, ⟨0, _⟩ => ⟨S4x128x8192, .f32⟩
  | .local _ .vmem, ⟨1, _⟩ => ⟨S4x128x8192, .f32⟩
  | .local _ .vmem, ⟨2, _⟩ => ⟨S1x128x128, .f32⟩
  | .local _ .vmem, ⟨3, _⟩ => ⟨S1x128x128, .f32⟩
  | .local _ .vmem, ⟨4, _⟩ => ⟨S1x128x1, .f32⟩
  | .local _ .vmem, ⟨5, _⟩ => ⟨S1x128x1, .f32⟩
  | .local _ .vmem, ⟨6, _⟩ => ⟨S1x128x8192, .f32⟩
  | .local _ .vmem, ⟨7, _⟩ => ⟨S1x128x8192, .f32⟩
  | .local _ .vmem, ⟨8, _⟩ => ⟨S8x128x128, .f32⟩
  | .local _ .vmem, ⟨9, _⟩ => ⟨S8x128x1, .f32⟩
  | .local _ .vmem, ⟨10, _⟩ => ⟨S512x128, .f32⟩
  | .local _ .vmem, ⟨11, _⟩ => ⟨S256x512, .f32⟩
  | .local _ .vmem, ⟨12, _⟩ => ⟨S512x1, .f32⟩
  | .local _ .vmem, ⟨13, _⟩ => ⟨S512x1, .f32⟩
  | .local _ .vmem, ⟨14, _⟩ => ⟨S1x256x8192, .f32⟩
  | .local _ .vmem, ⟨15, _⟩ => ⟨S1x256x8192, .f32⟩
  | _, _ => ⟨S32x128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S4x128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![32, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x128x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S8x128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S512x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x256x8192 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  inb_S4x128x8192_S1x128x8192_0_0_0 : ∀ a, (![0, 0, 0] : Fin 3 → Nat) a + S1x128x8192.size a ≤ S4x128x8192.size a
  h_S1x128x8192 : 0 < S1x128x8192.numel
  shapeCasts_S1x128x8192_S128x8192 : S1x128x8192.ShapeCasts S128x8192
  bitsLt_bf16_f32 : FTy.bits .bf16 < FTy.bits .f32
  reduces_S128x8192_S128 : S128x8192.Reduces [1] S128
  shapeCasts_S128_S128x1 : S128.ShapeCasts S128x1
  inb_S4x128x8192_S1x128x8192_1_0_0 : ∀ a, (![1, 0, 0] : Fin 3 → Nat) a + S1x128x8192.size a ≤ S4x128x8192.size a
  inb_S4x128x8192_S1x128x8192_2_0_0 : ∀ a, (![2, 0, 0] : Fin 3 → Nat) a + S1x128x8192.size a ≤ S4x128x8192.size a
  inb_S4x128x8192_S1x128x8192_3_0_0 : ∀ a, (![3, 0, 0] : Fin 3 → Nat) a + S1x128x8192.size a ≤ S4x128x8192.size a
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  shapeCasts_S512_S512x1 : S512.ShapeCasts S512x1
  inb_S8x128x128_S8x128x128_0_0_0 : ∀ a, (![0, 0, 0] : Fin 3 → Nat) a + S8x128x128.size a ≤ S8x128x128.size a
  h_S8x128x128 : 0 < S8x128x128.numel
  shapeCasts_S8x128x128_S8x128x128 : S8x128x128.ShapeCasts S8x128x128
  reduces_S8x128x128_S128x128 : S8x128x128.Reduces [0] S128x128
  inb_S8x128x1_S8x128x1_0_0_0 : ∀ a, (![0, 0, 0] : Fin 3 → Nat) a + S8x128x1.size a ≤ S8x128x1.size a
  h_S8x128x1 : 0 < S8x128x1.numel
  shapeCasts_S8x128x1_S8x128x1 : S8x128x1.ShapeCasts S8x128x1
  reduces_S8x128x1_S128x1 : S8x128x1.Reduces [0] S128x1
  inb_S512x128_S512x128_0_0 : ∀ a, (![0, 0] : Fin 2 → Nat) a + S512x128.size a ≤ S512x128.size a
  h_S512x128 : 0 < S512x128.numel
  reduces_S512x128_S512 : S512x128.Reduces [1] S512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S256x512_S256x512_0_0 : ∀ a, (![0, 0] : Fin 2 → Nat) a + S256x512.size a ≤ S256x512.size a
  h_S256x512 : 0 < S256x512.numel
  inb_S1x128x8192_S1x128x8192_0_0_0 : ∀ a, (![0, 0, 0] : Fin 3 → Nat) a + S1x128x8192.size a ≤ S1x128x8192.size a
  broadcasts_S512x1_S512x8192 : S512x1.Broadcasts S512x8192
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  shapeCasts_S256x8192_S1x256x8192 : S256x8192.ShapeCasts S1x256x8192
  dot_S128x8192_S128x8192_S128x128_1_1_0_0_n_n_wf : DotDims.WF S128x8192 S128x8192 S128x128 [1] [1] [0] [0] [] []
  dot_S512x128_S128x1_S512x1_1_0_0_1_n_n_wf : DotDims.WF S512x128 S128x1 S512x1 [1] [0] [0] [1] [] []
  dot_S512x128_S128x128_S512x128_1_0_0_1_n_n_wf : DotDims.WF S512x128 S128x128 S512x128 [1] [0] [0] [1] [] []
  dot_S512x128_S128x8192_S512x8192_1_0_0_1_n_n_wf : DotDims.WF S512x128 S128x8192 S512x8192 [1] [0] [0] [1] [] []
  dot_S256x512_S512x8192_S256x8192_1_0_0_1_n_n_wf : DotDims.WF S256x512 S512x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x8192.size a ≤ S32x128x8192.size a
  hwx0_0 : ∀ i : grid0.Coords, EltTy.bits .f32 = 32 ∨ (Rect.block (s := S32x128x8192) S4x128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S8x128x128.size a
  hwx0_1 : ∀ i : grid0.Coords, EltTy.bits .f32 = 32 ∨ (Rect.block (s := S8x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S8x128x1.size a
  hwx0_2 : ∀ i : grid0.Coords, EltTy.bits .f32 = 32 ∨ (Rect.block (s := S8x128x1) S1x128x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x8192.size a ≤ S32x128x8192.size a
  hwx1_0 : ∀ i : grid1.Coords, EltTy.bits .f32 = 32 ∨ (Rect.block (s := S32x128x8192) S1x128x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x128x128.size a ≤ S8x128x128.size a
  hwx1_1 : ∀ i : grid1.Coords, EltTy.bits .f32 = 32 ∨ (Rect.block (s := S8x128x128) S8x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x128x1.size a ≤ S8x128x1.size a
  hwx1_2 : ∀ i : grid1.Coords, EltTy.bits .f32 = 32 ∨ (Rect.block (s := S8x128x1) S8x128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .f32 = 32 ∨ (Rect.block (s := S512x128) S512x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x512.size a ≤ S256x512.size a
  hwx1_4 : ∀ i : grid1.Coords, EltTy.bits .f32 = 32 ∨ (Rect.block (s := S256x512) S256x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S512x1.size a
  hwx1_5 : ∀ i : grid1.Coords, EltTy.bits .f32 = 32 ∨ (Rect.block (s := S512x1) S512x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S512x1.size a
  hwx1_6 : ∀ i : grid1.Coords, EltTy.bits .f32 = 32 ∨ (Rect.block (s := S512x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x8192.size a ≤ S32x256x8192.size a
  hwx1_7 : ∀ i : grid1.Coords, EltTy.bits .f32 = 32 ∨ (Rect.block (s := S32x256x8192) S1x256x8192.size (cc1_transform_7 i) (hinb1_7 i)).WholeWords (EltTy.packing .f32)

variable [Facts₀]

def dot_S128x8192_S128x8192_S128x128_1_1_0_0_n_n : DotDims S128x8192 S128x8192 S128x128 where
  lhsContracting := [1]
  rhsContracting := [1]
  lhsNonContracting := [0]
  rhsNonContracting := [0]
  lhsBatch := []
  rhsBatch := []
  wf := dot_S128x8192_S128x8192_S128x128_1_1_0_0_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x8192_S512x8192_1_0_0_1_n_n : DotDims S512x128 S128x8192 S512x8192 where
  lhsContracting := [1]
  rhsContracting := [0]
  lhsNonContracting := [0]
  rhsNonContracting := [1]
  lhsBatch := []
  rhsBatch := []
  wf := dot_S512x128_S128x8192_S512x8192_1_0_0_1_n_n_wf
def dot_S256x512_S512x8192_S256x8192_1_0_0_1_n_n : DotDims S256x512 S512x8192 S256x8192 where
  lhsContracting := [1]
  rhsContracting := [0]
  lhsNonContracting := [0]
  rhsNonContracting := [1]
  lhsBatch := []
  rhsBatch := []
  wf := dot_S256x512_S512x8192_S256x8192_1_0_0_1_n_n_wf

abbrev win0_0 : Pipeline.Window sig grid0 :=
  Pipeline.Window.ofSpec (Memref.whole main_arg0) S4x128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x128x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S8x128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S8x128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S512x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S512x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S1x256x8192.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S32x128x8192 : Shape := ⟨3, ![32, 128, 8192]⟩
abbrev S512x128 : Shape := ⟨2, ![512, 128]⟩
abbrev S512 : Shape := ⟨1, ![512]⟩
abbrev S256x512 : Shape := ⟨2, ![256, 512]⟩
abbrev S64x512x1 : Shape := ⟨3, ![64, 512, 1]⟩
abbrev S1x128x4096 : Shape := ⟨3, ![1, 128, 4096]⟩
abbrev S1x512x1 : Shape := ⟨3, ![1, 512, 1]⟩
abbrev S512x1 : Shape := ⟨2, ![512, 1]⟩
abbrev S128x4096 : Shape := ⟨2, ![128, 4096]⟩
abbrev S512x4096 : Shape := ⟨2, ![512, 4096]⟩
abbrev S_ : Shape := ⟨0, ![]⟩
abbrev S32x256x8192 : Shape := ⟨3, ![32, 256, 8192]⟩
abbrev S1x256x4096 : Shape := ⟨3, ![1, 256, 4096]⟩
abbrev S256x4096 : Shape := ⟨2, ![256, 4096]⟩

abbrev nBuf : Space → Nat
  | .hbm => 34
  | .vmem => 15
  | .smem => 0
  | _ => 0

abbrev bufTy : (tb : Table) → Fin (tcTables nBuf tb) → BufTy
  | .hbm, ⟨0, _⟩ => ⟨S32x128x8192, .f32⟩
  | .hbm, ⟨1, _⟩ => ⟨S512x128, .f32⟩
  | .hbm, ⟨2, _⟩ => ⟨S512, .f32⟩
  | .hbm, ⟨3, _⟩ => ⟨S512, .f32⟩
  | .hbm, ⟨4, _⟩ => ⟨S256x512, .f32⟩
  | .hbm, ⟨5, _⟩ => ⟨S64x512x1, .f32⟩
  | .hbm, ⟨6, _⟩ => ⟨S64x512x1, .f32⟩
  | .hbm, ⟨7, _⟩ => ⟨S_, .f32⟩
  | .hbm, ⟨8, _⟩ => ⟨S512x1, .f32⟩
  | .hbm, ⟨9, _⟩ => ⟨S512, .f32⟩
  | .hbm, ⟨10, _⟩ => ⟨S_, .f32⟩
  | .hbm, ⟨11, _⟩ => ⟨S512x1, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S512, .f32⟩
  | .hbm, ⟨31, _⟩ => ⟨S512x1, .f32⟩
  | .hbm, ⟨32, _⟩ => ⟨S512x1, .f32⟩
  | .hbm, ⟨33, _⟩ => ⟨S32x256x8192, .f32⟩
  | .local _ .vmem, ⟨0, _⟩ => ⟨S1x128x4096, .f32⟩
  | .local _ .vmem, ⟨1, _⟩ => ⟨S1x128x4096, .f32⟩
  | .local _ .vmem, ⟨2, _⟩ => ⟨S512x128, .f32⟩
  | .local _ .vmem, ⟨3, _⟩ => ⟨S1x512x1, .f32⟩
  | .local _ .vmem, ⟨4, _⟩ => ⟨S1x512x1, .f32⟩
  | .local _ .vmem, ⟨5, _⟩ => ⟨S1x512x1, .f32⟩
  | .local _ .vmem, ⟨6, _⟩ => ⟨S1x512x1, .f32⟩
  | .local _ .vmem, ⟨7, _⟩ => ⟨S1x128x4096, .f32⟩
  | .local _ .vmem, ⟨8, _⟩ => ⟨S1x128x4096, .f32⟩
  | .local _ .vmem, ⟨9, _⟩ => ⟨S512x128, .f32⟩
  | .local _ .vmem, ⟨10, _⟩ => ⟨S256x512, .f32⟩
  | .local _ .vmem, ⟨11, _⟩ => ⟨S512x1, .f32⟩
  | .local _ .vmem, ⟨12, _⟩ => ⟨S512x1, .f32⟩
  | .local _ .vmem, ⟨13, _⟩ => ⟨S1x256x4096, .f32⟩
  | .local _ .vmem, ⟨14, _⟩ => ⟨S1x256x4096, .f32⟩
  | _, _ => ⟨S32x128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![32, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  inb_S512x128_S512x128_0_0 : ∀ a, (![0, 0] : Fin 2 → Nat) a + S512x128.size a ≤ S512x128.size a
  h_S512x128 : 0 < S512x128.numel
  reduces_S512x4096_S512 : S512x4096.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  reducesTo_S64x512x1_S512x1_d0 : S64x512x1.ReducesTo [0] S512x1
  h_S_ : 0 < S_.numel
  shapeCasts_S512x1_S512 : S512x1.ShapeCasts S512
  bcast_S_S512 : S_.BroadcastsInDim S512 (![] : Fin 0 → Fin S512.rank)
  inb_S256x512_S256x512_0_0 : ∀ a, (![0, 0] : Fin 2 → Nat) a + S256x512.size a ≤ S256x512.size a
  h_S256x512 : 0 < S256x512.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  dot_S512x128_S128x4096_S512x4096_1_0_0_1_n_n_wf : DotDims.WF S512x128 S128x4096 S512x4096 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S32x128x8192.size a
  hwx0_0 : ∀ i : grid0.Coords, EltTy.bits .f32 = 32 ∨ (Rect.block (s := S32x128x8192) S1x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S64x512x1.size a
  hwx0_2 : ∀ i : grid0.Coords, EltTy.bits .f32 = 32 ∨ (Rect.block (s := S64x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S64x512x1.size a
  hwx0_3 : ∀ i : grid0.Coords, EltTy.bits .f32 = 32 ∨ (Rect.block (s := S64x512x1) S1x512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x4096.size a ≤ S32x128x8192.size a
  hwx1_0 : ∀ i : grid1.Coords, EltTy.bits .f32 = 32 ∨ (Rect.block (s := S32x128x8192) S1x128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .f32 = 32 ∨ (Rect.block (s := S256x512) S256x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S512x1.size a
  hwx1_3 : ∀ i : grid1.Coords, EltTy.bits .f32 = 32 ∨ (Rect.block (s := S512x1) S512x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S512x1.size a
  hwx1_4 : ∀ i : grid1.Coords, EltTy.bits .f32 = 32 ∨ (Rect.block (s := S512x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x4096.size a ≤ S32x256x8192.size a
  hwx1_5 : ∀ i : grid1.Coords, EltTy.bits .f32 = 32 ∨ (Rect.block (s := S32x256x8192) S1x256x4096.size (cc1_transform_5 i) (hinb1_5 i)).WholeWords (EltTy.packing .f32)

variable [Facts₀]

def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_arg0) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S512x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S512x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x256x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== Proof.Spec.lean ====
/-
  The mathematics of the two programs, index by index, on the extended reals.

  Both programs compute, for an input x[n, c, l] (32 items, 128 channels, 8192 positions), a first weight w1[h, c]
  (512 x 128), batch-norm parameters gamma[h], beta[h] and a second weight w2[o, h] (256 x 512):
      pre[n, h, l] = sum_c w1[h, c] * x[n, c, l]
      mean[h]      = (sum_{n, l} pre[n, h, l]) / 2^18            (2^18 = 32 * 8192 entries per channel h)
      var[h]       = max ((sum_{n, l} pre[n, h, l]^2) / 2^18 - mean[h]^2, 0)
      scale[h]     = gamma[h] * rsqrt (var[h] + eps),   shift[h] = beta[h] - mean[h] * scale[h]
      out[n, o, l] = sum_h w2[o, h] * max (pre[n, h, l] * scale[h] + shift[h], 0).
  The reference forms pre explicitly, sums it and its square over 64 chunks (item n, half t of the positions) and folds
  the statistics on the host. The kernel never forms pre for the statistics: over 8 chunks of 4 items it accumulates
  the Gram matrix g[c', c] = sum_{n, l} x[n, c', l] * x[n, c, l] and the channel sums s[c] = sum_{n, l} x[n, c, l],
  obtains sum pre = w1 s and sum pre^2 = rowsum ((w1 g) * w1), multiplies by 2^-18 instead of dividing by 2^18, and
  folds scale into w1 before the first product. Each function below is one side's value exactly as that side
  computes it; that the two agree for real inputs is proved apart.
-/
import Idealize.ShloMosaic.PureOps.Ideal

noncomputable section

namespace Cert.Mlp

open Idealize.ShloMosaic

/-- The three float constants of the programs, as the extended reals their bit patterns denote:
    2^-18, 2^18 and the batch-norm epsilon (the float nearest 1e-5). -/
def k18 : EReal := Ideal.ofBits .f32 0x36800000#32
def n18 : EReal := Ideal.ofBits .f32 0x48800000#32
def eps : EReal := Ideal.ofBits .f32 0x3727C5AC#32

/-- Item b of the kernel's chunk q (chunks of 4 consecutive items). -/
def bq (q : Fin 8) (b : Fin 4) : Fin 32 := ⟨4 * q.val + b.val, by omega⟩
/-- Position l of half t of the positions (halves of 4096 consecutive positions). -/
def lt (t : Fin 2) (l : Fin 4096) : Fin 8192 := ⟨4096 * t.val + l.val, by omega⟩
/-- The reference's chunk k is item k / 2, half k % 2. -/
def kn (k : Fin 64) : Fin 32 := ⟨k.val / 2, by omega⟩
def kt (k : Fin 64) : Fin 2 := ⟨k.val % 2, by omega⟩

/-! ## The kernel's side -/

/-- Chunk q's partial Gram matrix: over its 4 items and all positions, the products of channels c' and c. -/
def kGram (x : Fin 32 → Fin 128 → Fin 8192 → EReal) (q : Fin 8) (c' c : Fin 128) : EReal :=
  ∑ b : Fin 4, ∑ l : Fin 8192, x (bq q b) c' l * x (bq q b) c l

/-- Chunk q's partial channel sums. -/
def kSx (x : Fin 32 → Fin 128 → Fin 8192 → EReal) (q : Fin 8) (c : Fin 128) : EReal :=
  ∑ b : Fin 4, ∑ l : Fin 8192, x (bq q b) c l

/-- The mean of pre over items and positions, from the channel sums: (w1 (sum_q s_q)) * 2^-18. -/
def kMean (w1 : Fin 512 → Fin 128 → EReal) (s : Fin 8 → Fin 128 → EReal) (h : Fin 512) : EReal :=
  (∑ c : Fin 128, w1 h c * ∑ q : Fin 8, s q c) * k18

/-- The mean of pre^2, from the Gram matrix: rowsum ((w1 (sum_q g_q)) * w1) * 2^-18. -/
def kEx2 (w1 : Fin 512 → Fin 128 → EReal) (g : Fin 8 → Fin 128 → Fin 128 → EReal) (h : Fin 512) : EReal :=
  (∑ c : Fin 128, (∑ c' : Fin 128, w1 h c' * ∑ q : Fin 8, g q c' c) * w1 h c) * k18

def kVar (w1 : Fin 512 → Fin 128 → EReal) (g : Fin 8 → Fin 128 → Fin 128 → EReal) (s : Fin 8 → Fin 128 → EReal)
    (h : Fin 512) : EReal :=
  max (kEx2 w1 g h - kMean w1 s h * kMean w1 s h) 0

def kScale (w1 : Fin 512 → Fin 128 → EReal) (g : Fin 8 → Fin 128 → Fin 128 → EReal) (s : Fin 8 → Fin 128 → EReal)
    (γ : Fin 512 → EReal) (h : Fin 512) : EReal :=
  γ h * Ideal.rsqrt (kVar w1 g s h + eps)

def kShift (w1 : Fin 512 → Fin 128 → EReal) (g : Fin 8 → Fin 128 → Fin 128 → EReal) (s : Fin 8 → Fin 128 → EReal)
    (γ β : Fin 512 → EReal) (h : Fin 512) : EReal :=
  β h - kMean w1 s h * kScale w1 g s γ h

/-- The hidden layer as the kernel forms it: scale folded into w1 before the product with x. -/
def kHid (x : Fin 32 → Fin 128 → Fin 8192 → EReal) (w1 : Fin 512 → Fin 128 → EReal)
    (g : Fin 8 → Fin 128 → Fin 128 → EReal) (s : Fin 8 → Fin 128 → EReal) (γ β : Fin 512 → EReal)
    (n : Fin 32) (h : Fin 512) (l : Fin 8192) : EReal :=
  max ((∑ c : Fin 128, (w1 h c * kScale w1 g s γ h) * x n c l) + kShift w1 g s γ β h) 0

def kOut (x : Fin 32 → Fin 128 → Fin 8192 → EReal) (w1 : Fin 512 → Fin 128 → EReal) (w2 : Fin 256 → Fin 512 → EReal)
    (g : Fin 8 → Fin 128 → Fin 128 → EReal) (s : Fin 8 → Fin 128 → EReal) (γ β : Fin 512 → EReal)
    (n : Fin 32) (o : Fin 256) (l : Fin 8192) : EReal :=
  ∑ h : Fin 512, w2 o h * kHid x w1 g s γ β n h l

/-! ## The reference's side -/

def rPre (x : Fin 32 → Fin 128 → Fin 8192 → EReal) (w1 : Fin 512 → Fin 128 → EReal)
    (n : Fin 32) (h : Fin 512) (l : Fin 8192) : EReal :=
  ∑ c : Fin 128, w1 h c * x n c l

/-- Chunk k's partial sum of pre, and of its square, over the chunk's 4096 positions. -/
def rPs (x : Fin 32 → Fin 128 → Fin 8192 → EReal) (w1 : Fin 512 → Fin 128 → EReal) (k : Fin 64) (h : Fin 512) : EReal :=
  ∑ l : Fin 4096, rPre x w1 (kn k) h (lt (kt k) l)

def rPss (x : Fin 32 → Fin 128 → Fin 8192 → EReal) (w1 : Fin 512 → Fin 128 → EReal) (k : Fin 64) (h : Fin 512) : EReal :=
  ∑ l : Fin 4096, rPre x w1 (kn k) h (lt (kt k) l) * rPre x w1 (kn k) h (lt (kt k) l)

/-- The host's fold of the 64 partial sums. -/
def rMean (ps : Fin 64 → Fin 512 → EReal) (h : Fin 512) : EReal := Ideal.div (∑ k : Fin 64, ps k h) n18

def rVar (ps pss : Fin 64 → Fin 512 → EReal) (h : Fin 512) : EReal :=
  max (Ideal.div (∑ k : Fin 64, pss k h) n18 - rMean ps h * rMean ps h) 0

def rScale (ps pss : Fin 64 → Fin 512 → EReal) (γ : Fin 512 → EReal) (h : Fin 512) : EReal :=
  γ h * Ideal.rsqrt (rVar ps pss h + eps)

def rShift (ps pss : Fin 64 → Fin 512 → EReal) (γ β : Fin 512 → EReal) (h : Fin 512) : EReal :=
  β h - rMean ps h * rScale ps pss γ h

/-- The hidden layer as the reference forms it, from a scale and a shift. -/
def rHid (x : Fin 32 → Fin 128 → Fin 8192 → EReal) (w1 : Fin 512 → Fin 128 → EReal) (sc sh : Fin 512 → EReal)
    (n : Fin 32) (h : Fin 512) (l : Fin 8192) : EReal :=
  max (rPre x w1 n h l * sc h + sh h) 0

def rOut (x : Fin 32 → Fin 128 → Fin 8192 → EReal) (w1 : Fin 512 → Fin 128 → EReal) (w2 : Fin 256 → Fin 512 → EReal)
    (sc sh : Fin 512 → EReal) (n : Fin 32) (o : Fin 256) (l : Fin 8192) : EReal :=
  ∑ h : Fin 512, w2 o h * rHid x w1 sc sh n h l

end Cert.Mlp

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.KReg0.lean ====
import proofs.«132259_g2000306565302007_pallasbulk_1216_5_alg».proof.Proof.Gen.KernelIdeal.Frame
import proofs.«132259_g2000306565302007_pallasbulk_1216_5_alg».proof.Proof.Spec
import proofs.«132259_g2000306565302007_pallasbulk_1216_5_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's arithmetic at an index -/

/-- An item of the block viewed as a matrix: row p, lane l is the item at (0, p, l). -/
theorem item_matrix_apply (v : Vec Ideal S1x128x8192 .f32) (p : Fin 128) (l : Fin 8192) :
    shapeCast S128x8192 v shapeCasts_S1x128x8192_S128x8192 (ix2 p l) = v (ix3 (0 : Fin 1) p l) := by
  refine shapeCast_apply v _ (ix2 p l) (ix3 (0 : Fin 1) p l) ?_
  rw [Shape.rowMajor_val_three, Shape.rowMajor_val_two]
  show (0 * 128 + p.val) * 8192 + l.val = p.val * 8192 + l.val
  omega

theorem gram_lhs_0 (j : S128x128.Idx) (k : dot_S128x8192_S128x8192_S128x128_1_1_0_0_n_n.contr.Idx) :
    (dot_S128x8192_S128x8192_S128x128_1_1_0_0_n_n.lhsIdx j k 0).val = (j 0).val := by
  simp [DotDims.lhsIdx, dot_S128x8192_S128x8192_S128x128_1_1_0_0_n_n]; rfl

theorem gram_lhs_1 (j : S128x128.Idx) (k : dot_S128x8192_S128x8192_S128x128_1_1_0_0_n_n.contr.Idx) :
    (dot_S128x8192_S128x8192_S128x128_1_1_0_0_n_n.lhsIdx j k 1).val = (k ⟨0, Nat.one_pos⟩).val :=
  dot_S128x8192_S128x8192_S128x128_1_1_0_0_n_n.lhsIdx_val_of_single rfl j k

theorem gram_rhs_0 (j : S128x128.Idx) (k : dot_S128x8192_S128x8192_S128x128_1_1_0_0_n_n.contr.Idx) :
    (dot_S128x8192_S128x8192_S128x128_1_1_0_0_n_n.rhsIdx j k 0).val = (j 1).val := by
  simp [DotDims.rhsIdx, dot_S128x8192_S128x8192_S128x128_1_1_0_0_n_n]; rfl

theorem gram_rhs_1 (j : S128x128.Idx) (k : dot_S128x8192_S128x8192_S128x128_1_1_0_0_n_n.contr.Idx) :
    (dot_S128x8192_S128x8192_S128x128_1_1_0_0_n_n.rhsIdx j k 1).val = (k ⟨0, Nat.one_pos⟩).val :=
  dot_S128x8192_S128x8192_S128x128_1_1_0_0_n_n.rhsIdx_val_of_single rfl j k

/-- A matrix times its own transpose over the lanes, into the zero accumulator: at (p, q) the sum over the lanes of
    the products of rows p and q. -/
theorem self_product_apply (A : FVec Ideal S128x8192 .bf16) (p q : Fin 128) :
    matmul dot_S128x8192_S128x8192_S128x128_1_1_0_0_n_n none A A (constant (F := Ideal) S128x128 .f32 0x00000000#32) (ix2 p q)
      = ∑ l : Fin 8192, A (ix2 p l) * A (ix2 q l) := by
  show FloatOps.matmul _ none A A _ (ix2 p q) = _
  rw [Ideal.matmul_constant_zero_apply,
    ← Equiv.sum_comp (contrEquiv1 dot_S128x8192_S128x8192_S128x128_1_1_0_0_n_n 8192 rfl rfl).symm]
  refine Finset.sum_congr rfl fun l _ => ?_
  have hk := contrEquiv1_symm_val dot_S128x8192_S128x8192_S128x128_1_1_0_0_n_n 8192 rfl rfl l
  have hl : dot_S128x8192_S128x8192_S128x128_1_1_0_0_n_n.lhsIdx (ix2 p q)
      ((contrEquiv1 dot_S128x8192_S128x8192_S128x128_1_1_0_0_n_n 8192 rfl rfl).symm l) = ix2 p l := by
    funext ax; apply Fin.ext
    match ax with
    | ⟨0, _⟩ => exact gram_lhs_0 _ _
    | ⟨1, _⟩ => exact (gram_lhs_1 _ _).trans hk
  have hr : dot_S128x8192_S128x8192_S128x128_1_1_0_0_n_n.rhsIdx (ix2 p q)
      ((contrEquiv1 dot_S128x8192_S128x8192_S128x128_1_1_0_0_n_n 8192 rfl rfl).symm l) = ix2 q l := by
    funext ax; apply Fin.ext
    match ax with
    | ⟨0, _⟩ => exact gram_rhs_0 _ _
    | ⟨1, _⟩ => exact (gram_rhs_1 _ _).trans hk
  rw [hl, hr]

/-- One item's contribution to the Gram matrix. -/
theorem item_gram_apply (v : Vec Ideal S1x128x8192 .f32) (p q : Fin 128) :
    matmul dot_S128x8192_S128x8192_S128x128_1_1_0_0_n_n none
        (truncf .bf16 (shapeCast S128x8192 v shapeCasts_S1x128x8192_S128x8192) bitsLt_bf16_f32)
        (truncf .bf16 (shapeCast S128x8192 v shapeCasts_S1x128x8192_S128x8192) bitsLt_bf16_f32)
        (constant (F := Ideal) S128x128 .f32 0x00000000#32) (ix2 p q)
      = ∑ l : Fin 8192, v (ix3 (0 : Fin 1) p l) * v (ix3 (0 : Fin 1) q l) := by
  rw [self_product_apply]
  refine Finset.sum_congr rfl fun l _ => ?_
  rw [truncf_apply, truncf_apply, item_matrix_apply, item_matrix_apply]

/-- One item's contribution to the channel sums. -/
theorem item_sum_apply (v : Vec Ideal S1x128x8192 .f32) (p : Fin 128) (z : Fin 1) :
    shapeCast S128x1 (multiReduction (F := Ideal) .add [1] S128 (shapeCast S128x8192 v shapeCasts_S1x128x8192_S128x8192)
        0x00000000#32 reduces_S128x8192_S128 (.inl rfl) rfl) shapeCasts_S128_S128x1 (ix2 p z)
      = ∑ l : Fin 8192, v (ix3 (0 : Fin 1) p l) := by
  refine (shapeCast_apply _ shapeCasts_S128_S128x1 (ix2 p z) (ix1 p) ?_).trans ?_
  · rw [Shape.rowMajor_val_one, Shape.rowMajor_val_two]
    show p.val = p.val * 1 + z.val
    have := z.isLt; omega
  refine (Cert.LibKeepdims.lane_sum_apply _ reduces_S128x8192_S128 (.inl rfl) rfl p).trans ?_
  exact Finset.sum_congr rfl fun l _ => item_matrix_apply v p l

/-- The Gram accumulator after the four items, at (p, q). -/
theorem gram_acc_apply (v0 v1 v2 v3 : Vec Ideal S1x128x8192 .f32) (p q : Fin 128) :
    k0_pay7 (F := Ideal) v0 v1 v2 v3 (ix2 p q)
      = (((∑ l : Fin 8192, v0 (ix3 (0 : Fin 1) p l) * v0 (ix3 (0 : Fin 1) q l))
          + ∑ l : Fin 8192, v1 (ix3 (0 : Fin 1) p l) * v1 (ix3 (0 : Fin 1) q l))
          + ∑ l : Fin 8192, v2 (ix3 (0 : Fin 1) p l) * v2 (ix3 (0 : Fin 1) q l))
          + ∑ l : Fin 8192, v3 (ix3 (0 : Fin 1) p l) * v3 (ix3 (0 : Fin 1) q l) := by
  unfold k0_pay7 k0_pay3 k0_pay4 k0_pay5 k0_pay6
  simp only [addf_apply, broadcast_apply]
  rw [item_gram_apply, item_gram_apply, item_gram_apply, item_gram_apply]
  show Ideal.ofBits .f32 0x00000000#32 + _ + _ + _ + _ = _
  rw [Ideal.ofBits_zero_f32, zero_add]

/-- The channel-sum accumulator after the four items, at (p, 0). -/
theorem sum_acc_apply (v0 v1 v2 v3 : Vec Ideal S1x128x8192 .f32) (p : Fin 128) (z : Fin 1) :
    k0_pay8 (F := Ideal) v0 v1 v2 v3 (ix2 p z)
      = (((∑ l : Fin 8192, v0 (ix3 (0 : Fin 1) p l)) + ∑ l : Fin 8192, v1 (ix3 (0 : Fin 1) p l))
          + ∑ l : Fin 8192, v2 (ix3 (0 : Fin 1) p l)) + ∑ l : Fin 8192, v3 (ix3 (0 : Fin 1) p l) := by
  unfold k0_pay8 k0_pay3 k0_pay4 k0_pay5 k0_pay6
  simp only [addf_apply, broadcast_apply]
  rw [item_sum_apply, item_sum_apply, item_sum_apply, item_sum_apply]
  show Ideal.ofBits .f32 0x00000000#32 + _ + _ + _ + _ = _
  rw [Ideal.ofBits_zero_f32, zero_add]

/-- The stored Gram block reads the accumulator at its two trailing coordinates. -/
theorem gram_store_apply (g : FVec Ideal S128x128 .f32) (z : Fin 1) (p q : Fin 128) :
    k0_pay1 (F := Ideal) g (ix3 z p q) = g (ix2 p q) := by
  unfold k0_pay1
  refine shapeCast_apply g _ (ix3 z p q) (ix2 p q) ?_
  rw [Shape.rowMajor_val_three, Shape.rowMajor_val_two]
  show p.val * 128 + q.val = (z.val * 128 + p.val) * 128 + q.val
  have := z.isLt; omega

/-- The stored channel-sum block likewise. -/
theorem sum_store_apply (s : FVec Ideal S128x1 .f32) (z : Fin 1) (p : Fin 128) (z' : Fin 1) :
    k0_pay2 (F := Ideal) s (ix3 z p z') = s (ix2 p z') := by
  unfold k0_pay2
  refine shapeCast_apply s _ (ix3 z p z') (ix2 p z') ?_
  rw [Shape.rowMajor_val_three, Shape.rowMajor_val_two]
  show p.val * 1 + z'.val = (z.val * 128 + p.val) * 1 + z'.val
  have := z.isLt; omega

/-! ## One grid point: what the body leaves, from the input block -/

theorem zeros3 : (![0, 0, 0] : Fin 3 → Nat) = fun _ => 0 := funext fun a => by fin_cases a <;> rfl

/-- Item b of the block, loaded as [1, 128, 8192], at (0, p, l) is the block at (b, p, l). -/
theorem item_load_apply (x : Vec Ideal S4x128x8192 .f32) (off : Fin 3 → Nat)
    (inb : ∀ a, off a + S1x128x8192.size a ≤ S4x128x8192.size a) (b : Fin 4)
    (h0 : off 0 = b.val) (h1 : off 1 = 0) (h2 : off 2 = 0) (p : Fin 128) (l : Fin 8192) :
    View.ld x (Rect.unit (s := S4x128x8192) off S1x128x8192.size inb) (ix3 (0 : Fin 1) p l) = x (ix3 b p l) := by
  show x _ = x _
  congr 1
  funext a; apply Fin.ext
  match a with
  | ⟨0, _⟩ => show off 0 + 1 * 0 = b.val; omega
  | ⟨1, _⟩ => show off 1 + 1 * p.val = p.val; omega
  | ⟨2, _⟩ => show off 2 + 1 * l.val = l.val; omega

section Point
variable (X : Fin 32 → Fin 128 → Fin 8192 → EReal) (x : Vec Ideal S4x128x8192 .f32) (n : Fin 8)
  (hx : ∀ (b : Fin 4) (ch : Fin 128) (l : Fin 8192), x (ix3 b ch l) = X (Cert.Mlp.bq n b) ch l)
include hx

theorem loaded_item_gram (off : Fin 3 → Nat) (inb : ∀ a, off a + S1x128x8192.size a ≤ S4x128x8192.size a) (b : Fin 4)
    (h0 : off 0 = b.val) (h1 : off 1 = 0) (h2 : off 2 = 0) (p q : Fin 128) :
    (∑ l : Fin 8192, View.ld x (Rect.unit (s := S4x128x8192) off S1x128x8192.size inb) (ix3 (0 : Fin 1) p l)
        * View.ld x (Rect.unit (s := S4x128x8192) off S1x128x8192.size inb) (ix3 (0 : Fin 1) q l))
      = ∑ l : Fin 8192, X (Cert.Mlp.bq n b) p l * X (Cert.Mlp.bq n b) q l :=
  Finset.sum_congr rfl fun l _ => by
    rw [item_load_apply x off inb b h0 h1 h2, item_load_apply x off inb b h0 h1 h2, hx, hx]

theorem loaded_item_sum (off : Fin 3 → Nat) (inb : ∀ a, off a + S1x128x8192.size a ≤ S4x128x8192.size a) (b : Fin 4)
    (h0 : off 0 = b.val) (h1 : off 1 = 0) (h2 : off 2 = 0) (p : Fin 128) :
    (∑ l : Fin 8192, View.ld x (Rect.unit (s := S4x128x8192) off S1x128x8192.size inb) (ix3 (0 : Fin 1) p l))
      = ∑ l : Fin 8192, X (Cert.Mlp.bq n b) p l :=
  Finset.sum_congr rfl fun l _ => by rw [item_load_apply x off inb b h0 h1 h2, hx]

/-- The Gram block the body leaves, from a block that holds items 4n … 4n + 3 of X. -/
theorem gram_point (z : Fin 1) (p q : Fin 128) : out0_1 x (ix3 z p q) = Cert.Mlp.kGram X n p q := by
  unfold out0_1
  rw [View.canon_unit_zero zeros3, gram_store_apply, gram_acc_apply]
  rw [loaded_item_gram X x n hx ![0, 0, 0] _ 0 rfl rfl rfl, loaded_item_gram X x n hx ![1, 0, 0] _ 1 rfl rfl rfl,
    loaded_item_gram X x n hx ![2, 0, 0] _ 2 rfl rfl rfl, loaded_item_gram X x n hx ![3, 0, 0] _ 3 rfl rfl rfl]
  unfold Cert.Mlp.kGram
  rw [Fin.sum_univ_four]

/-- The channel-sum block the body leaves. -/
theorem sum_point (z : Fin 1) (p : Fin 128) (z' : Fin 1) : out0_2 x (ix3 z p z') = Cert.Mlp.kSx X n p := by
  unfold out0_2
  rw [View.canon_unit_zero zeros3, sum_store_apply, sum_acc_apply]
  rw [loaded_item_sum X x n hx ![0, 0, 0] _ 0 rfl rfl rfl, loaded_item_sum X x n hx ![1, 0, 0] _ 1 rfl rfl rfl,
    loaded_item_sum X x n hx ![2, 0, 0] _ 2 rfl rfl rfl, loaded_item_sum X x n hx ![3, 0, 0] _ 3 rfl rfl rfl]
  unfold Cert.Mlp.kSx
  rw [Fin.sum_univ_four]

end Point

/-! ## From the blocks to the arrays -/

/-- The printed index maps over the 8 grid points: every window's block index at point t is (t, 0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem point_lt (t : Fin cfg0.N) : t.val < 8 := lt_of_lt_of_eq t.isLt N_0

/-- The two sides' chunk values agree when their indices agree as naturals. -/
theorem kGram_congr (X : Fin 32 → Fin 128 → Fin 8192 → EReal) (a a' : Fin 8) (p p' q q' : Fin 128)
    (ha : a.val = a'.val) (hp : p.val = p'.val) (hq : q.val = q'.val) :
    Cert.Mlp.kGram X a p q = Cert.Mlp.kGram X a' p' q' := by
  obtain rfl := Fin.ext ha; obtain rfl := Fin.ext hp; obtain rfl := Fin.ext hq; rfl

theorem kSx_congr (X : Fin 32 → Fin 128 → Fin 8192 → EReal) (a a' : Fin 8) (p p' : Fin 128)
    (ha : a.val = a'.val) (hp : p.val = p'.val) : Cert.Mlp.kSx X a p = Cert.Mlp.kSx X a' p' := by
  obtain rfl := Fin.ext ha; obtain rfl := Fin.ext hp; rfl

/-- The input block at point t holds items 4t … 4t + 3 of the input array. -/
theorem in_block_apply (c : Dev nD) (t : Fin cfg0.N) (b : Fin 4) (ch : Fin 128) (l : Fin 8192) :
    (iblk0 V c 0 t : Vec Ideal S4x128x8192 .f32) (ix3 b ch l)
      = V c main_arg0 (ix3 (Cert.Mlp.bq ⟨t.val, point_lt t⟩ b) ch l) := by
  obtain ⟨e0, e1, e2, -⟩ := index_facts t
  show V c main_arg0 (((cfg0.win 0).blk t).view.emb (ix3 b ch l)) = V c main_arg0 _
  have h : ((cfg0.win 0).blk t).view.emb (ix3 b ch l)
      = (ix3 (Cert.Mlp.bq ⟨t.val, point_lt t⟩ b) ch l : S32x128x8192.Idx) := by
    funext a; apply Fin.ext
    match a with
    | ⟨0, _⟩ => show win0_0.index t (0 : Fin 3) * 4 + 1 * b.val = 4 * t.val + b.val; rw [e0]; omega
    | ⟨1, _⟩ => show win0_0.index t (1 : Fin 3) * 128 + 1 * ch.val = ch.val; rw [e1]; omega
    | ⟨2, _⟩ => show win0_0.index t (2 : Fin 3) * 8192 + 1 * l.val = l.val; rw [e2]; omega
  rw [h]

/-- What point t writes back to the first output is block t of the partial Gram matrices. -/
theorem gram_flushed (c : Dev nD) (t : Fin cfg0.N) :
    (dat0 V c).flushed 1 t = ((cfg0.win 1).blk t).view.read (Elt Ideal)
      (fun i => Cert.Mlp.kGram (fun n ch l => V c main_arg0 (ix3 n ch l)) (i 0) (i 1) (i 2)) := by
  show (cfg0.win 1).cut (cfg0.grid.coords t) ((dat0 V c).after 1 t) = _
  rw [after0_1]
  obtain ⟨-, -, -, e0, e1, e2, -⟩ := index_facts t
  funext j
  have key : ∀ j' : S1x128x128.Idx, out0_1 (iblk0 V c 0 t) j'
      = Cert.Mlp.kGram (fun n ch l => V c main_arg0 (ix3 n ch l)) (((cfg0.win 1).blk t).view.emb j' 0)
          (((cfg0.win 1).blk t).view.emb j' 1) (((cfg0.win 1).blk t).view.emb j' 2) := by
    intro j'
    obtain ⟨z, p, q, rfl⟩ : ∃ (z : Fin 1) (p q : Fin 128), j' = ix3 z p q := ⟨j' 0, j' 1, j' 2, eq_ix3 j'⟩
    refine (gram_point (fun n ch l => V c main_arg0 (ix3 n ch l)) (iblk0 V c 0 t) ⟨t.val, point_lt t⟩
      (in_block_apply V c t) z p q).trans (kGram_congr _ _ _ _ _ _ _ ?_ ?_ ?_)
    · show t.val = win0_1.index t (0 : Fin 3) * 1 + 1 * z.val
      rw [e0]; have := z.isLt; omega
    · show p.val = win0_1.index t (1 : Fin 3) * 128 + 1 * p.val
      rw [e1]; omega
    · show q.val = win0_1.index t (2 : Fin 3) * 128 + 1 * q.val
      rw [e2]; omega
  exact key j

/-- What point t writes back to the second output is block t of the partial channel sums. -/
theorem sum_flushed (c : Dev nD) (t : Fin cfg0.N) :
    (dat0 V c).flushed 2 t = ((cfg0.win 2).blk t).view.read (Elt Ideal)
      (fun i => Cert.Mlp.kSx (fun n ch l => V c main_arg0 (ix3 n ch l)) (i 0) (i 1)) := by
  show (cfg0.win 2).cut (cfg0.grid.coords t) ((dat0 V c).after 2 t) = _
  rw [after0_2]
  obtain ⟨-, -, -, -, -, -, e0, e1, e2⟩ := index_facts t
  funext j
  have key : ∀ j' : S1x128x1.Idx, out0_2 (iblk0 V c 0 t) j'
      = Cert.Mlp.kSx (fun n ch l => V c main_arg0 (ix3 n ch l)) (((cfg0.win 2).blk t).view.emb j' 0)
          (((cfg0.win 2).blk t).view.emb j' 1) := by
    intro j'
    obtain ⟨z, p, z', rfl⟩ : ∃ (z : Fin 1) (p : Fin 128) (z' : Fin 1), j' = ix3 z p z' := ⟨j' 0, j' 1, j' 2, eq_ix3 j'⟩
    refine (sum_point (fun n ch l => V c main_arg0 (ix3 n ch l)) (iblk0 V c 0 t) ⟨t.val, point_lt t⟩
      (in_block_apply V c t) z p z').trans (kSx_congr _ _ _ _ _ ?_ ?_)
    · show t.val = win0_2.index t (0 : Fin 3) * 1 + 1 * z.val
      rw [e0]; have := z.isLt; omega
    · show p.val = win0_2.index t (1 : Fin 3) * 128 + 1 * p.val
      rw [e1]; omega
  exact key j

/-- An index of the first output is in point t's block iff each coordinate is in the block's range on its axis. -/
theorem mem_gram_blk (t : Fin cfg0.N) (i : S8x128x128.Idx) :
    i ∈ ((cfg0.win 1).blk t).view.set ↔ ∀ a : Fin 3, win0_1.index t a * S1x128x128.size a ≤ (i a).val
      ∧ (i a).val < win0_1.index t a * S1x128x128.size a + S1x128x128.size a := by
  show i ∈ ((View.whole main_v0_0).slice (win0_1.rect t)).set ↔ _
  rw [View.set_slice_whole, Rect.mem_set_unit]
  exact Iff.rfl

theorem mem_sum_blk (t : Fin cfg0.N) (i : S8x128x1.Idx) :
    i ∈ ((cfg0.win 2).blk t).view.set ↔ ∀ a : Fin 3, win0_2.index t a * S1x128x1.size a ≤ (i a).val
      ∧ (i a).val < win0_2.index t a * S1x128x1.size a + S1x128x1.size a := by
  show i ∈ ((View.whole main_v0_1).slice (win0_2.rect t)).set ↔ _
  rw [View.set_slice_whole, Rect.mem_set_unit]
  exact Iff.rfl

/-- Chunk q of the first output is point q's block. -/
theorem gram_cover (i : S8x128x128.Idx) :
    ∃ t : Fin cfg0.N, (cfg0.win 1).flush t = true ∧ i ∈ ((cfg0.win 1).blk t).view.set := by
  have hi0 : (i 0).val < 8 := (i 0).isLt
  have hi1 : (i 1).val < 128 := (i 1).isLt
  have hi2 : (i 2).val < 128 := (i 2).isLt
  obtain ⟨t, ht⟩ : ∃ t : Fin cfg0.N, t.val = (i 0).val := ⟨⟨(i 0).val, lt_of_lt_of_eq hi0 N_0.symm⟩, rfl⟩
  obtain ⟨-, -, -, e0, e1, e2, -⟩ := index_facts t
  refine ⟨t, flush0_1 t, ?_⟩
  rw [mem_gram_blk]
  intro a
  match a with
  | ⟨0, _⟩ => show win0_1.index t (0 : Fin 3) * 1 ≤ (i 0).val ∧ (i 0).val < win0_1.index t (0 : Fin 3) * 1 + 1; rw [e0]; omega
  | ⟨1, _⟩ => show win0_1.index t (1 : Fin 3) * 128 ≤ (i 1).val ∧ (i 1).val < win0_1.index t (1 : Fin 3) * 128 + 128; rw [e1]; omega
  | ⟨2, _⟩ => show win0_1.index t (2 : Fin 3) * 128 ≤ (i 2).val ∧ (i 2).val < win0_1.index t (2 : Fin 3) * 128 + 128; rw [e2]; omega

theorem sum_cover (i : S8x128x1.Idx) :
    ∃ t : Fin cfg0.N, (cfg0.win 2).flush t = true ∧ i ∈ ((cfg0.win 2).blk t).view.set := by
  have hi0 : (i 0).val < 8 := (i 0).isLt
  have hi1 : (i 1).val < 128 := (i 1).isLt
  have hi2 : (i 2).val < 1 := (i 2).isLt
  obtain ⟨t, ht⟩ : ∃ t : Fin cfg0.N, t.val = (i 0).val := ⟨⟨(i 0).val, lt_of_lt_of_eq hi0 N_0.symm⟩, rfl⟩
  obtain ⟨-, -, -, -, -, -, e0, e1, e2⟩ := index_facts t
  refine ⟨t, flush0_2 t, ?_⟩
  rw [mem_sum_blk]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 128 ≤ (i 1).val ∧ (i 1).val < win0_2.index t (1 : Fin 3) * 128 + 128; rw [e1]; omega
  | ⟨2, _⟩ => show win0_2.index t (2 : Fin 3) * 1 ≤ (i 2).val ∧ (i 2).val < win0_2.index t (2 : Fin 3) * 1 + 1; rw [e2]; omega

/-- After the statistics region, chunk q of the first output array is the chunk's partial Gram matrix of the
    input as the region found it. -/
theorem gram_parts (c : Dev nD) :
    (dat0 V c).arrAt 1 cfg0.N
      = fun i => Cert.Mlp.kGram (fun n ch l => V c main_arg0 (ix3 n ch l)) (i 0) (i 1) (i 2) :=
  (dat0 V c).arrAt_eq_of_cover 1 _ (fun t _ => gram_flushed V c t) gram_cover

/-- and chunk q of the second output array the chunk's partial channel sums. -/
theorem sum_parts (c : Dev nD) :
    (dat0 V c).arrAt 2 cfg0.N
      = fun i => Cert.Mlp.kSx (fun n ch l => V c main_arg0 (ix3 n ch l)) (i 0) (i 1) :=
  (dat0 V c).arrAt_eq_of_cover 2 _ (fun t _ => sum_flushed V c t) sum_cover

end Cert.KernelIdeal.Val

end
-- ==== Proof.KReg1.lean ====
import proofs.«132259_g2000306565302007_pallasbulk_1216_5_alg».proof.Proof.Gen.KernelIdeal.Frame
import proofs.«132259_g2000306565302007_pallasbulk_1216_5_alg».proof.Proof.Spec
import proofs.«132259_g2000306565302007_pallasbulk_1216_5_alg».proof.Proof.LibKeepdims
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## Operations read at an index, for any extents -/

section AnyExtents
variable {α : Type}

/-- The product of an [M, K] matrix by a [K, N] matrix accumulated into the zero pattern, read at (a, b), is the sum
    over the contracted coordinate of the products of the entries. -/
private theorem matmul_zero_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) :=
  (congrFun (matmul_zero_eq_dotGeneral (DotDims.plain M K N) prec A B) (ix2 a b)).trans
    (StackMember.dotGeneral_plain_apply prec A B a b)

/-- The sum over the leading axis of an [a, b, c] array from the zero pattern, read at (p, q), is the sum over the
    leading coordinate. -/
private theorem lead_sum_apply {a b c : ℕ} (src : FVec Ideal ⟨3, ![a, b, c]⟩ .f32)
    (h : (⟨3, ![a, b, c]⟩ : Shape).Reduces [0] ⟨2, ![b, c]⟩) (hφ : FKind.Formats .f32)
    (hacc : (0x00000000#32 : BitVec (FTy.bits .f32)) = FKind.add.neutral .f32 hφ) (p : Fin b) (q : Fin c) :
    multiReduction (F := Ideal) .add [0] ⟨2, ![b, c]⟩ src 0x00000000#32 h hφ hacc (ix2 p q) = ∑ k : Fin a, src (ix3 k p q) :=
  (Ideal.multiReduction_add_single src _ h hφ hacc (ix2 p q)).trans
    (Finset.sum_congr rfl fun k _ => congrArg src
      (funext fun ax => Fin.ext (by match ax with | ⟨0, _⟩ => rfl | ⟨1, _⟩ => rfl | ⟨2, _⟩ => rfl)))

/-- A vector [a] cast to a column [a, 1] reads, at (p, 0), the vector at p. -/
private theorem cast_column_apply {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_one, Shape.rowMajor_val_two]
    show p.val = p.val * 1 + 0
    omega)

/-- A column [a, 1] broadcast across the columns of [a, b] reads, at (p, q), the column at (p, 0). -/
private theorem broadcast_column_apply {a b : ℕ} (w : (⟨2, ![a, 1]⟩ : Shape).Idx → α)
    (h : (⟨2, ![a, 1]⟩ : Shape).Broadcasts ⟨2, ![a, b]⟩) (p : Fin a) (q : Fin b) :
    broadcastTo ⟨2, ![a, b]⟩ w h (ix2 p q) = w (ix2 p (0 : Fin 1)) :=
  broadcastTo_apply w h (ix2 p q) (ix2 p (0 : Fin 1)) fun ax => by
    match ax with
    | ⟨0, _⟩ =>
      show p.val = if a = 1 then 0 else p.val
      split
      · have := p.isLt; omega
      · rfl
    | ⟨1, _⟩ => rfl

end AnyExtents

/-! ## The four products' dimension numbers are the plain rows-by-columns ones -/

private theorem dims_mean : dot_S512x128_S128x1_S512x1_1_0_0_1_n_n = DotDims.plain 512 128 1 := rfl
private theorem dims_gram : dot_S512x128_S128x128_S512x128_1_0_0_1_n_n = DotDims.plain 512 128 128 := rfl
private theorem dims_hid : dot_S512x128_S128x8192_S512x8192_1_0_0_1_n_n = DotDims.plain 512 128 8192 := rfl
private theorem dims_out : dot_S256x512_S512x8192_S256x8192_1_0_0_1_n_n = DotDims.plain 256 512 8192 := rfl

/-! ## The body's intermediates, index by index, over any loaded blocks -/

/-- The mean column at (h, 0). -/
private theorem mean_apply (v3 : Vec Ideal S8x128x1 .f32) (v6 : Vec Ideal S512x128 .f32) (h : Fin 512) :
    k1_pay2 (F := Ideal) v3 v6 (ix2 h (0 : Fin 1))
      = Cert.Mlp.kMean (fun h c => v6 (ix2 h c)) (fun q c => v3 (ix3 q c (0 : Fin 1))) h := by
  unfold k1_pay2 Cert.Mlp.kMean Cert.Mlp.k18
  refine congrArg (· * Ideal.ofBits .f32 0x36800000#32) ?_
  refine (matmul_zero_apply none v6 _ h (0 : Fin 1)).trans ?_
  refine Finset.sum_congr rfl fun c _ => congrArg (v6 (ix2 h c) * ·) ?_
  refine (lead_sum_apply _ _ _ _ c (0 : Fin 1)).trans ?_
  rw [shapeCast_self]

/-- The column of the row sums of (w1 · gram) ∘ w1, at (h, 0). -/
private theorem sumsq_apply (v0 : FVec Ideal S8x128x128 .f32) (v6 : FVec Ideal S512x128 .f32) (h : Fin 512) :
    shapeCast S512x1 (multiReduction (F := Ideal) .add [1] S512
        (mulf (matmul dot_S512x128_S128x128_S512x128_1_0_0_1_n_n none v6
          (multiReduction (F := Ideal) .add [0] S128x128 (shapeCast S8x128x128 v0 shapeCasts_S8x128x128_S8x128x128)
            0x00000000#32 reduces_S8x128x128_S128x128 (.inl rfl) rfl)
          (constant (F := Ideal) S512x128 .f32 0x00000000#32)) v6)
        0x00000000#32 reduces_S512x128_S512 (.inl rfl) rfl) shapeCasts_S512_S512x1 (ix2 h (0 : Fin 1))
      = ∑ c : Fin 128, (∑ c' : Fin 128, v6 (ix2 h c') * ∑ q : Fin 8, v0 (ix3 q c' c)) * v6 (ix2 h c) := by
  refine (cast_column_apply _ _ h).trans ?_
  refine (Cert.LibKeepdims.lane_sum_apply _ _ _ _ h).trans ?_
  refine Finset.sum_congr rfl fun c _ => ?_
  refine congrArg (· * v6 (ix2 h c)) ?_
  refine (matmul_zero_apply none v6 _ h c).trans ?_
  refine Finset.sum_congr rfl fun c' _ => congrArg (v6 (ix2 h c') * ·) ?_
  refine (lead_sum_apply _ _ _ _ c' c).trans ?_
  rw [shapeCast_self]

/-- The scale column at (h, 0). -/
private theorem scale_apply (v0 : Vec Ideal S8x128x128 .f32) (v3 : Vec Ideal S8x128x1 .f32) (v6 : Vec Ideal S512x128 .f32)
    (v20 : Vec Ideal S512x1 .f32) (h : Fin 512) :
    k1_pay3 (F := Ideal) v0 v3 v6 v20 (ix2 h (0 : Fin 1))
      = Cert.Mlp.kScale (fun h c => v6 (ix2 h c)) (fun q c' c => v0 (ix3 q c' c))
          (fun q c => v3 (ix3 q c (0 : Fin 1))) (fun h => v20 (ix2 h (0 : Fin 1))) h := by
  unfold k1_pay3 Cert.Mlp.kScale Cert.Mlp.kVar Cert.Mlp.kEx2 Cert.Mlp.eps Cert.Mlp.k18
  refine congrArg₂ (· * ·) (congrFun (shapeCast_self v20 _) _) ?_
  refine congrArg Ideal.rsqrt ?_
  refine congrArg₂ (· + ·) ?_ rfl
  refine congrArg₂ max ?_ Ideal.ofBits_zero_f32
  refine congrArg₂ (· - ·) ?_ ?_
  · exact congrArg (· * Ideal.ofBits .f32 0x36800000#32) (sumsq_apply v0 v6 h)
  · exact congrArg₂ (· * ·) (mean_apply v3 v6 h) (mean_apply v3 v6 h)

/-- The shift column at (h, 0). -/
private theorem shift_apply (v0 : Vec Ideal S8x128x128 .f32) (v3 : Vec Ideal S8x128x1 .f32) (v6 : Vec Ideal S512x128 .f32)
    (v20 v26 : Vec Ideal S512x1 .f32) (h : Fin 512) :
    k1_pay4 (F := Ideal) v0 v3 v6 v20 v26 (ix2 h (0 : Fin 1))
      = Cert.Mlp.kShift (fun h c => v6 (ix2 h c)) (fun q c' c => v0 (ix3 q c' c))
          (fun q c => v3 (ix3 q c (0 : Fin 1))) (fun h => v20 (ix2 h (0 : Fin 1)))
          (fun h => v26 (ix2 h (0 : Fin 1))) h := by
  unfold k1_pay4 Cert.Mlp.kShift
  refine congrArg₂ (· - ·) (congrFun (shapeCast_self v26 _) _) ?_
  exact congrArg₂ (· * ·) (mean_apply v3 v6 h) (scale_apply v0 v3 v6 v20 h)

/-- The first weight with the scale folded in, at (h, c). -/
private theorem w1s_apply (v0 : Vec Ideal S8x128x128 .f32) (v3 : Vec Ideal S8x128x1 .f32) (v6 : Vec Ideal S512x128 .f32)
    (v20 : Vec Ideal S512x1 .f32) (h : Fin 512) (c : Fin 128) :
    k1_pay5 (F := Ideal) v0 v3 v6 v20 (ix2 h c)
      = v6 (ix2 h c) * Cert.Mlp.kScale (fun h c => v6 (ix2 h c)) (fun q c' c => v0 (ix3 q c' c))
          (fun q c => v3 (ix3 q c (0 : Fin 1))) (fun h => v20 (ix2 h (0 : Fin 1))) h := by
  unfold k1_pay5
  refine congrArg (v6 (ix2 h c) * ·) ?_
  exact (broadcast_column_apply _ _ h c).trans (scale_apply v0 v3 v6 v20 h)

/-- The stored block at (u, o, l), from any shift column, folded first weight, second weight and input block:
    the second product over the rectified first product plus shift. -/
private theorem out_apply (v29 : FVec Ideal S512x1 .f32) (v32 : FVec Ideal S512x128 .bf16) (v34 : FVec Ideal S256x512 .bf16)
    (v35 : Vec Ideal S1x128x8192 .f32) (u : Fin 1) (o : Fin 256) (l : Fin 8192) :
    k1_pay1 (F := Ideal) v29 v32 v34 v35 (ix3 u o l)
      = ∑ h : Fin 512, v34 (ix2 o h)
          * max ((∑ c : Fin 128, v32 (ix2 h c) * v35 (ix3 (0 : Fin 1) c l)) + v29 (ix2 h (0 : Fin 1))) 0 := by
  unfold k1_pay1
  refine (shapeCast_ab_1ab_apply _ _ u o l).trans ?_
  refine (matmul_zero_apply none v34 _ o l).trans ?_
  refine Finset.sum_congr rfl fun h _ => congrArg (v34 (ix2 o h) * ·) ?_
  refine congrArg₂ max ?_ Ideal.ofBits_zero_f32
  refine congrArg₂ (· + ·) ?_ (broadcast_column_apply v29 _ h l)
  refine (matmul_zero_apply none v32 _ h l).trans ?_
  refine Finset.sum_congr rfl fun c _ => congrArg (v32 (ix2 h c) * ·) ?_
  exact shapeCast_1ab_ab_apply v35 _ c l

/-- The body's stored block at (u, o, l), from the seven loaded blocks. -/
private theorem body_apply (x0 : Vec Ideal S1x128x8192 .f32) (x1 : Vec Ideal S8x128x128 .f32) (x2 : Vec Ideal S8x128x1 .f32)
    (x3 : Vec Ideal S512x128 .f32) (x4 : Vec Ideal S256x512 .f32) (x5 x6 : Vec Ideal S512x1 .f32)
    (u : Fin 1) (o : Fin 256) (l : Fin 8192) :
    k1_pay1 (F := Ideal) (k1_pay4 x1 x2 x3 x5 x6) (k1_pay5 x1 x2 x3 x5) (k1_pay6 x4) x0 (ix3 u o l)
      = ∑ h : Fin 512, x4 (ix2 o h)
          * max ((∑ c : Fin 128, (x3 (ix2 h c) * Cert.Mlp.kScale (fun h c => x3 (ix2 h c)) (fun q c' c => x1 (ix3 q c' c))
                    (fun q c => x2 (ix3 q c (0 : Fin 1))) (fun h => x5 (ix2 h (0 : Fin 1))) h) * x0 (ix3 (0 : Fin 1) c l))
              + Cert.Mlp.kShift (fun h c => x3 (ix2 h c)) (fun q c' c => x1 (ix3 q c' c))
                  (fun q c => x2 (ix3 q c (0 : Fin 1))) (fun h => x5 (ix2 h (0 : Fin 1)))
                  (fun h => x6 (ix2 h (0 : Fin 1))) h) 0 := by
  refine (out_apply _ _ _ x0 u o l).trans ?_
  refine Finset.sum_congr rfl fun h _ => congrArg₂ (· * ·) rfl ?_
  refine congrArg₂ max ?_ rfl
  refine congrArg₂ (· + ·) ?_ (shift_apply x1 x2 x3 x5 x6 h)
  exact Finset.sum_congr rfl fun c _ => congrArg (· * x0 (ix3 (0 : Fin 1) c l)) (w1s_apply x1 x2 x3 x5 h c)

/-! ## From blocks to the array -/

private theorem zeros3 : (![0, 0, 0] : Fin 3 → Nat) = fun _ => 0 := funext fun a => by fin_cases a <;> rfl
private theorem zeros2 : (![0, 0] : Fin 2 → Nat) = fun _ => 0 := funext fun a => by fin_cases a <;> rfl

/-- The printed index maps, decided over the 32 grid points: the input window moves with the output window along
    the items and both stay at block 0 on the other axes; the six whole windows stay at block 0. -/
private theorem index_facts : ∀ t : Fin cfg1.N,
    win1_0.index t (0 : Fin 3) = win1_7.index t (0 : Fin 3) ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 3) ≤ 31 ∧ win1_7.index t (1 : Fin 3) = 0 ∧ win1_7.index t (2 : Fin 3) = 0 :=
  (by decide +kernel : ∀ t : Fin grid1.N, _)

/-- Every item's block is some point's. -/
private theorem index_onto : ∀ q0 : Fin 32, ∃ t : Fin cfg1.N, win1_7.index t = ![q0.val, 0, 0] :=
  (by decide +kernel : ∀ q0 : Fin 32, ∃ t : Fin grid1.N, win1_7.index t = ![q0.val, 0, 0])

variable (V : (c : Dev nD) → (b : Ref sig .tc) → Buf (Elt Ideal) ((c : Thread nD τ).loc b))

/-- The six whole windows' blocks are their arrays. -/
private theorem gram_block (c : Dev nD) (t : Fin cfg1.N) : (iblk1 V c 1 t : Vec Ideal S8x128x128 .f32) = V c main_v0_0 := by
  obtain ⟨-, -, -, e0, e1, e2, -⟩ := index_facts t
  funext y
  show V c main_v0_0 (((cfg1.win 1).blk t).view.emb y) = V c main_v0_0 y
  have hy : ((cfg1.win 1).blk t).view.emb y = y := by
    funext a; apply Fin.ext
    match a with
    | ⟨0, _⟩ => show win1_1.index t (0 : Fin 3) * 8 + 1 * (y 0).val = (y 0).val; omega
    | ⟨1, _⟩ => show win1_1.index t (1 : Fin 3) * 128 + 1 * (y 1).val = (y 1).val; omega
    | ⟨2, _⟩ => show win1_1.index t (2 : Fin 3) * 128 + 1 * (y 2).val = (y 2).val; omega
  rw [hy]

private theorem sx_block (c : Dev nD) (t : Fin cfg1.N) : (iblk1 V c 2 t : Vec Ideal S8x128x1 .f32) = V c main_v0_1 := by
  obtain ⟨-, -, -, -, -, -, e0, e1, e2, -⟩ := index_facts t
  funext y
  show V c main_v0_1 (((cfg1.win 2).blk t).view.emb y) = V c main_v0_1 y
  have hy : ((cfg1.win 2).blk t).view.emb y = y := by
    funext a; apply Fin.ext
    match a with
    | ⟨0, _⟩ => show win1_2.index t (0 : Fin 3) * 8 + 1 * (y 0).val = (y 0).val; omega
    | ⟨1, _⟩ => show win1_2.index t (1 : Fin 3) * 128 + 1 * (y 1).val = (y 1).val; omega
    | ⟨2, _⟩ => show win1_2.index t (2 : Fin 3) * 1 + 1 * (y 2).val = (y 2).val; omega
  rw [hy]

private theorem w1_block (c : Dev nD) (t : Fin cfg1.N) : (iblk1 V c 3 t : Vec Ideal S512x128 .f32) = V c main_arg1 := by
  obtain ⟨-, -, -, -, -, -, -, -, -, e0, e1, -⟩ := index_facts t
  funext y
  show V c main_arg1 (((cfg1.win 3).blk t).view.emb y) = V c main_arg1 y
  have hy : ((cfg1.win 3).blk t).view.emb y = y := by
    funext a; apply Fin.ext
    match a with
    | ⟨0, _⟩ => show win1_3.index t (0 : Fin 2) * 512 + 1 * (y 0).val = (y 0).val; omega
    | ⟨1, _⟩ => show win1_3.index t (1 : Fin 2) * 128 + 1 * (y 1).val = (y 1).val; omega
  rw [hy]

private theorem w2_block (c : Dev nD) (t : Fin cfg1.N) : (iblk1 V c 4 t : Vec Ideal S256x512 .f32) = V c main_arg4 := by
  obtain ⟨-, -, -, -, -, -, -, -, -, -, -, e0, e1, -⟩ := index_facts t
  funext y
  show V c main_arg4 (((cfg1.win 4).blk t).view.emb y) = V c main_arg4 y
  have hy : ((cfg1.win 4).blk t).view.emb y = y := by
    funext a; apply Fin.ext
    match a with
    | ⟨0, _⟩ => show win1_4.index t (0 : Fin 2) * 256 + 1 * (y 0).val = (y 0).val; omega
    | ⟨1, _⟩ => show win1_4.index t (1 : Fin 2) * 512 + 1 * (y 1).val = (y 1).val; omega
  rw [hy]

private theorem gamma_block (c : Dev nD) (t : Fin cfg1.N) : (iblk1 V c 5 t : Vec Ideal S512x1 .f32) = V c main_v1 := by
  obtain ⟨-, -, -, -, -, -, -, -, -, -, -, -, -, e0, e1, -⟩ := index_facts t
  funext y
  show V c main_v1 (((cfg1.win 5).blk t).view.emb y) = V c main_v1 y
  have hy : ((cfg1.win 5).blk t).view.emb y = y := by
    funext a; apply Fin.ext
    match a with
    | ⟨0, _⟩ => show win1_5.index t (0 : Fin 2) * 512 + 1 * (y 0).val = (y 0).val; omega
    | ⟨1, _⟩ => show win1_5.index t (1 : Fin 2) * 1 + 1 * (y 1).val = (y 1).val; omega
  rw [hy]

private theorem beta_block (c : Dev nD) (t : Fin cfg1.N) : (iblk1 V c 6 t : Vec Ideal S512x1 .f32) = V c main_v2 := by
  obtain ⟨-, -, -, -, -, -, -, -, -, -, -, -, -, -, -, e0, e1, -⟩ := index_facts t
  funext y
  show V c main_v2 (((cfg1.win 6).blk t).view.emb y) = V c main_v2 y
  have hy : ((cfg1.win 6).blk t).view.emb y = y := by
    funext a; apply Fin.ext
    match a with
    | ⟨0, _⟩ => show win1_6.index t (0 : Fin 2) * 512 + 1 * (y 0).val = (y 0).val; omega
    | ⟨1, _⟩ => show win1_6.index t (1 : Fin 2) * 1 + 1 * (y 1).val = (y 1).val; omega
  rw [hy]

/-- The item a point works on. -/
private def itemOf (t : Fin cfg1.N) : Fin 32 := ⟨win1_7.index t (0 : Fin 3), Nat.lt_succ_of_le (index_facts t).2.2.2.2.2.2.2.2.2.2.2.2.2.2.2.2.2.1⟩

/-- The input window's block at a point is the point's item of the input. -/
private theorem x_block (c : Dev nD) (t : Fin cfg1.N) (ch : Fin 128) (l : Fin 8192) :
    (iblk1 V c 0 t : Vec Ideal S1x128x8192 .f32) (ix3 (0 : Fin 1) ch l) = V c main_arg0 (ix3 (itemOf t) ch l) := by
  obtain ⟨e0, e1, e2, -⟩ := index_facts t
  show V c main_arg0 (((cfg1.win 0).blk t).view.emb (ix3 (0 : Fin 1) ch l)) = V c main_arg0 (ix3 (itemOf t) ch l)
  have hy : ((cfg1.win 0).blk t).view.emb (ix3 (0 : Fin 1) ch l) = ix3 (itemOf t) ch l := by
    funext a; apply Fin.ext
    match a with
    | ⟨0, _⟩ => show win1_0.index t (0 : Fin 3) * 1 + 1 * 0 = win1_7.index t (0 : Fin 3); omega
    | ⟨1, _⟩ => show win1_0.index t (1 : Fin 3) * 128 + 1 * ch.val = ch.val; omega
    | ⟨2, _⟩ => show win1_0.index t (2 : Fin 3) * 8192 + 1 * l.val = l.val; omega
  rw [hy]

/-- An element of the output window's block at a point sits in the point's item of the output. -/
private theorem out_emb (t : Fin cfg1.N) (u : Fin 1) (o : Fin 256) (l : Fin 8192) :
    ((cfg1.win 7).blk t).view.emb (ix3 u o l) = ix3 (itemOf t) o l := by
  obtain ⟨-, -, -, -, -, -, -, -, -, -, -, -, -, -, -, -, -, -, e1, e2⟩ := index_facts t
  funext a; apply Fin.ext
  match a with
  | ⟨0, _⟩ => show win1_7.index t (0 : Fin 3) * 1 + 1 * u.val = win1_7.index t (0 : Fin 3); have := u.isLt; omega
  | ⟨1, _⟩ => show win1_7.index t (1 : Fin 3) * 256 + 1 * o.val = o.val; omega
  | ⟨2, _⟩ => show win1_7.index t (2 : Fin 3) * 8192 + 1 * l.val = l.val; omega

/-- What a point writes back is its block of the kernel's output function of the arrays the region found. -/
private theorem flushed_out (c : Dev nD) (t : Fin cfg1.N) :
    (dat1 V c).flushed 7 t = ((cfg1.win 7).blk t).view.read (Elt Ideal)
      (fun i => Cert.Mlp.kOut (fun n ch l => V c main_arg0 (ix3 n ch l)) (fun h ch => V c main_arg1 (ix2 h ch))
          (fun o h => V c main_arg4 (ix2 o h)) (fun q c' ch => V c main_v0_0 (ix3 q c' ch))
          (fun q ch => V c main_v0_1 (ix3 q ch (0 : Fin 1))) (fun h => V c main_v1 (ix2 h (0 : Fin 1)))
          (fun h => V c main_v2 (ix2 h (0 : Fin 1))) (i 0) (i 1) (i 2)) := by
  show (cfg1.win 7).cut (grid1.coords t) ((dat1 V c).after 7 t) = _
  rw [after1_7]
  unfold out1_7
  rw [View.canon_unit_zero zeros3]
  simp only [View.ld_unit_zero (S := S8x128x128) zeros3, View.ld_unit_zero (S := S8x128x1) zeros3,
    View.ld_unit_zero (S := S512x128) zeros2, View.ld_unit_zero (S := S512x1) zeros2,
    View.ld_unit_zero (S := S256x512) zeros2, View.ld_unit_zero (S := S1x128x8192) zeros3]
  rw [gram_block V c t, sx_block V c t, w1_block V c t, w2_block V c t, gamma_block V c t, beta_block V c t]
  funext j
  obtain ⟨u, o, l, rfl⟩ : ∃ (u : Fin 1) (o : Fin 256) (l : Fin 8192), j = ix3 u o l := ⟨j 0, j 1, j 2, eq_ix3 j⟩
  refine (body_apply (iblk1 V c 0 t) (V c main_v0_0) (V c main_v0_1) (V c main_arg1) (V c main_arg4) (V c main_v1)
    (V c main_v2) u o l).trans ?_
  have hread : ∀ G : S32x256x8192.Idx → EReal, ((cfg1.win 7).blk t).view.read (Elt Ideal) G (ix3 u o l)
      = G (((cfg1.win 7).blk t).view.emb (ix3 u o l)) := fun G => rfl
  refine Eq.trans ?_ (hread _).symm
  rw [out_emb t u o l]
  show _ = Cert.Mlp.kOut _ _ _ _ _ _ _ (itemOf t) o l
  unfold Cert.Mlp.kOut Cert.Mlp.kHid
  refine Finset.sum_congr rfl fun h _ => congrArg₂ (· * ·) rfl ?_
  refine congrArg₂ max ?_ rfl
  refine congrArg₂ (· + ·) ?_ rfl
  exact Finset.sum_congr rfl fun ch _ => congrArg (_ * ·) (x_block V c t ch l)

/-- An index of the output array is in a point's block iff each coordinate is in the block's range on its axis. -/
private theorem mem_out_block (t : Fin cfg1.N) (i : S32x256x8192.Idx) :
    i ∈ ((cfg1.win 7).blk t).view.set ↔ ∀ a : Fin 3, win1_7.index t a * S1x256x8192.size a ≤ (i a).val
      ∧ (i a).val < win1_7.index t a * S1x256x8192.size a + S1x256x8192.size a := by
  show i ∈ ((View.whole main_v3).slice (win1_7.rect t)).set ↔ _
  rw [View.set_slice_whole, Rect.mem_set_unit]
  exact Iff.rfl

/-- Every index of the output array is in the block of the point of its item. -/
private theorem out_cover (i : S32x256x8192.Idx) :
    ∃ t : Fin cfg1.N, (cfg1.win 7).flush t = true ∧ i ∈ ((cfg1.win 7).blk t).view.set := by
  have hi0 : (i 0).val < 32 := (i 0).isLt
  have hi1 : (i 1).val < 256 := (i 1).isLt
  have hi2 : (i 2).val < 8192 := (i 2).isLt
  obtain ⟨t, ht⟩ := index_onto ⟨(i 0).val, hi0⟩
  have q0 : win1_7.index t (0 : Fin 3) = (i 0).val := congrFun ht 0
  have q1 : win1_7.index t (1 : Fin 3) = 0 := congrFun ht 1
  have q2 : win1_7.index t (2 : Fin 3) = 0 := congrFun ht 2
  refine ⟨t, flush1_7 t, ?_⟩
  rw [mem_out_block]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 256 ≤ (i 1).val ∧ (i 1).val < win1_7.index t (1 : Fin 3) * 256 + 256; omega
  | ⟨2, _⟩ => show win1_7.index t (2 : Fin 3) * 8192 ≤ (i 2).val ∧ (i 2).val < win1_7.index t (2 : Fin 3) * 8192 + 8192; omega

/-- After the second region the result array is the kernel's output function of the arrays the region found:
    the input, the two partial-statistics arrays, both weights and the two batch-norm columns. -/
theorem apply_out (c : Dev nD) :
    (dat1 V c).arrAt 7 cfg1.N
      = fun i => Cert.Mlp.kOut (fun n ch l => V c main_arg0 (ix3 n ch l)) (fun h ch => V c main_arg1 (ix2 h ch))
          (fun o h => V c main_arg4 (ix2 o h)) (fun q c' ch => V c main_v0_0 (ix3 q c' ch))
          (fun q ch => V c main_v0_1 (ix3 q ch (0 : Fin 1))) (fun h => V c main_v1 (ix2 h (0 : Fin 1)))
          (fun h => V c main_v2 (ix2 h (0 : Fin 1))) (i 0) (i 1) (i 2) :=
  (dat1 V c).arrAt_eq_of_cover 7 _ (fun t _ => flushed_out V c t) out_cover

end Cert.KernelIdeal.Val

end
-- ==== Proof.KChain.lean ====
import proofs.«132259_g2000306565302007_pallasbulk_1216_5_alg».proof.Proof.KRun
import proofs.«132259_g2000306565302007_pallasbulk_1216_5_alg».proof.Proof.KReg0
import proofs.«132259_g2000306565302007_pallasbulk_1216_5_alg».proof.Proof.KReg1
import proofs.«132259_g2000306565302007_pallasbulk_1216_5_alg».proof.Proof.Spec
import Idealize.ShloMosaic.Lib.ValueIdx
import Idealize.ShloMosaic.Lib.ValueLayout
import Idealize.ShloMosaic.Lib.Pipeline.Value
import Idealize.ShloMosaic.Lib.StableHlo.Run

/-
  The kernel's program from launch to return: the statistics region leaves the partial Gram matrices and channel
  sums of the input; two host reshapes make gamma and beta columns; the second region turns these and the weights
  into the result. Read back through the segment boundaries, the result array is the kernel's output function of the
  launched arrays.
-/

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- A vector [a] cast to a column [a, 1], read at row p, is the vector at p. -/
theorem column_apply {α : Type} {a : ℕ} (v : (⟨1, ![a]⟩ : Shape).Idx → α)
    (h₁ : (⟨1, ![a]⟩ : Shape).ShapeCasts ⟨2, ![a, 1]⟩) (p : Fin a) :
    shapeCast ⟨2, ![a, 1]⟩ v h₁ (ix2 p (0 : Fin 1)) = v (ix1 p) :=
  shapeCast_apply v h₁ _ _ (by
    rw [Shape.rowMajor_val_one, Shape.rowMajor_val_two]
    show p.val = p.val * 1 + 0
    omega)

/-! ## Between the regions: gamma and beta become columns, nothing else is written -/

theorem host_gamma (W : Valuation τ sig (Elt Ideal)) (h : Fin 512) :
    StableHlo.after (hostOps1 (F := Ideal)) W (Proc.devRef .tc main_v1) (ix2 h (0 : Fin 1))
      = W (Proc.devRef .tc main_arg2) (ix1 h) := by
  have e : StableHlo.after (hostOps1 (F := Ideal)) W (Proc.devRef .tc main_v1)
      = shapeCast S512x1 (W (Proc.devRef .tc main_arg2)) shapeCasts_S512_S512x1 := by
    dsimp only [hostOps1]; after_results; rfl
  rw [e]; exact column_apply _ _ h

theorem host_beta (W : Valuation τ sig (Elt Ideal)) (h : Fin 512) :
    StableHlo.after (hostOps1 (F := Ideal)) W (Proc.devRef .tc main_v2) (ix2 h (0 : Fin 1))
      = W (Proc.devRef .tc main_arg3) (ix1 h) := by
  have e : StableHlo.after (hostOps1 (F := Ideal)) W (Proc.devRef .tc main_v2)
      = shapeCast S512x1 (W (Proc.devRef .tc main_arg3)) shapeCasts_S512_S512x1 := by
    dsimp only [hostOps1]; after_results; rfl
  rw [e]; exact column_apply _ _ h

/-! ## What the second region finds, in terms of the launch memory -/

theorem entry_x (c : Dev nD) : V2 m ρ c main_arg0 = m ((c : Thread nD τ).loc main_arg0) :=
  calc V2 m ρ c main_arg0
    _ = W1 m ρ c (Proc.devRef .tc main_arg0) := by
          show StableHlo.after (hostOps1 (F := Ideal)) (W1 m ρ c) (Proc.devRef .tc main_arg0) = _
          dsimp only [hostOps1]; after_results
    _ = W0 m ρ c (Proc.devRef .tc main_arg0) :=
          (W1_arr m ρ c 0).trans (((dat0 (V0 m ρ) c).arrAt_in 0 rfl _).trans (A_eq0 (V0 m ρ) c 0))
    _ = m ((c : Thread nD τ).loc main_arg0) := rfl

theorem entry_w1 (c : Dev nD) : V2 m ρ c main_arg1 = m ((c : Thread nD τ).loc main_arg1) :=
  calc V2 m ρ c main_arg1
    _ = W1 m ρ c (Proc.devRef .tc main_arg1) := by
          show StableHlo.after (hostOps1 (F := Ideal)) (W1 m ρ c) (Proc.devRef .tc main_arg1) = _
          dsimp only [hostOps1]; after_results
    _ = W0 m ρ c (Proc.devRef .tc main_arg1) := W1_of_ne m ρ c main_arg1 (by decide)
    _ = m ((c : Thread nD τ).loc main_arg1) := rfl

theorem entry_w2 (c : Dev nD) : V2 m ρ c main_arg4 = m ((c : Thread nD τ).loc main_arg4) :=
  calc V2 m ρ c main_arg4
    _ = W1 m ρ c (Proc.devRef .tc main_arg4) := by
          show StableHlo.after (hostOps1 (F := Ideal)) (W1 m ρ c) (Proc.devRef .tc main_arg4) = _
          dsimp only [hostOps1]; after_results
    _ = W0 m ρ c (Proc.devRef .tc main_arg4) := W1_of_ne m ρ c main_arg4 (by decide)
    _ = m ((c : Thread nD τ).loc main_arg4) := rfl

/-- The first statistics array holds the partial Gram matrices of the launched input, -/
theorem entry_gram (c : Dev nD) :
    V2 m ρ c main_v0_0
      = fun i => Cert.Mlp.kGram (fun n ch l => m ((c : Thread nD τ).loc main_arg0) (ix3 n ch l)) (i 0) (i 1) (i 2) :=
  calc V2 m ρ c main_v0_0
    _ = W1 m ρ c (Proc.devRef .tc main_v0_0) := by
          show StableHlo.after (hostOps1 (F := Ideal)) (W1 m ρ c) (Proc.devRef .tc main_v0_0) = _
          dsimp only [hostOps1]; after_results
    _ = (dat0 (V0 m ρ) c).arrAt 1 cfg0.N := W1_arr m ρ c 1
    _ = _ := gram_parts (V0 m ρ) c

/-- the second its partial channel sums. -/
theorem entry_sx (c : Dev nD) :
    V2 m ρ c main_v0_1
      = fun i => Cert.Mlp.kSx (fun n ch l => m ((c : Thread nD τ).loc main_arg0) (ix3 n ch l)) (i 0) (i 1) :=
  calc V2 m ρ c main_v0_1
    _ = W1 m ρ c (Proc.devRef .tc main_v0_1) := by
          show StableHlo.after (hostOps1 (F := Ideal)) (W1 m ρ c) (Proc.devRef .tc main_v0_1) = _
          dsimp only [hostOps1]; after_results
    _ = (dat0 (V0 m ρ) c).arrAt 2 cfg0.N := W1_arr m ρ c 2
    _ = _ := sum_parts (V0 m ρ) c

theorem entry_gamma (c : Dev nD) (h : Fin 512) :
    V2 m ρ c main_v1 (ix2 h (0 : Fin 1)) = m ((c : Thread nD τ).loc main_arg2) (ix1 h) :=
  (host_gamma (W1 m ρ c) h).trans (congrFun (W1_of_ne m ρ c main_arg2 (by decide)) (ix1 h))

theorem entry_beta (c : Dev nD) (h : Fin 512) :
    V2 m ρ c main_v2 (ix2 h (0 : Fin 1)) = m ((c : Thread nD τ).loc main_arg3) (ix1 h) :=
  (host_beta (W1 m ρ c) h).trans (congrFun (W1_of_ne m ρ c main_arg3 (by decide)) (ix1 h))

/-! ## The result array, and the run -/

/-- The result array after the run is the kernel's output function of the launched arrays, fed the partial
    statistics of the launched input. -/
theorem result_eq (c : Dev nD) :
    W3 m ρ c (Proc.devRef .tc main_v3)
      = fun i => Cert.Mlp.kOut (fun n ch l => m ((c : Thread nD τ).loc main_arg0) (ix3 n ch l))
          (fun h ch => m ((c : Thread nD τ).loc main_arg1) (ix2 h ch))
          (fun o h => m ((c : Thread nD τ).loc main_arg4) (ix2 o h))
          (Cert.Mlp.kGram fun n ch l => m ((c : Thread nD τ).loc main_arg0) (ix3 n ch l))
          (Cert.Mlp.kSx fun n ch l => m ((c : Thread nD τ).loc main_arg0) (ix3 n ch l))
          (fun h => m ((c : Thread nD τ).loc main_arg2) (ix1 h))
          (fun h => m ((c : Thread nD τ).loc main_arg3) (ix1 h)) (i 0) (i 1) (i 2) := by
  refine (W3_arr m ρ c 7).trans ((apply_out (V2 m ρ) c).trans ?_)
  have hγ : (fun h : Fin 512 => V2 m ρ c main_v1 (ix2 h (0 : Fin 1)))
      = fun h => m ((c : Thread nD τ).loc main_arg2) (ix1 h) := funext (entry_gamma m ρ c)
  have hβ : (fun h : Fin 512 => V2 m ρ c main_v2 (ix2 h (0 : Fin 1)))
      = fun h => m ((c : Thread nD τ).loc main_arg3) (ix1 h) := funext (entry_beta m ρ c)
  rw [hγ, hβ, entry_x, entry_w1, entry_w2, entry_gram, entry_sx]
  rfl

/-- Every weakly fair execution of the kernel's program terminates with the result array at that function of the
    launched arrays and the arguments unchanged. -/
theorem run_spec : θ_run defs (onTc (τ := τ) (main (F := Ideal))) ⟨m, fun _ => 0, ρ⟩ (fun r => ∀ c : Dev nD,
      r.2.mem ((c.tc : Thread nD τ).loc main_v3)
        = (fun i => Cert.Mlp.kOut (fun n ch l => m ((c : Thread nD τ).loc main_arg0) (ix3 n ch l))
          (fun h ch => m ((c : Thread nD τ).loc main_arg1) (ix2 h ch))
          (fun o h => m ((c : Thread nD τ).loc main_arg4) (ix2 o h))
          (Cert.Mlp.kGram fun n ch l => m ((c : Thread nD τ).loc main_arg0) (ix3 n ch l))
          (Cert.Mlp.kSx fun n ch l => m ((c : Thread nD τ).loc main_arg0) (ix3 n ch l))
          (fun h => m ((c : Thread nD τ).loc main_arg2) (ix1 h))
          (fun h => m ((c : Thread nD τ).loc main_arg3) (ix1 h)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (run_result m ρ)

end Cert.KernelIdeal.Val

end
-- ==== Proof.RReg0.lean ====
import proofs.«132259_g2000306565302007_pallasbulk_1216_5_alg».proof.Proof.Gen.ReferenceIdeal.Frame
import proofs.«132259_g2000306565302007_pallasbulk_1216_5_alg».proof.Proof.Spec
import proofs.«132259_g2000306565302007_pallasbulk_1216_5_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Val

open Idealize.ShloMosaic Idealize.ShloMosaic.TcCoe Idealize.ShloMosaic.ValueIdx Idealize.SL.Sem
open Idealize.ShloMosaic.Pipeline (Dat Cfg Window)
open Cert.ReferenceIdeal Cert.ReferenceIdeal.Gen

variable (V : (c : Dev nD) → (b : Ref sig .tc) → Buf (Elt Ideal) ((c : Thread nD τ).loc b))

/-! ## The statistics body at an index

The first product at (h, l) of a block is the sum over the 128 channels of w1[h, ch] * x[0, ch, l]; the two stored
columns at (0, h, 0) are the sums over the block's 4096 positions of that product and of its square. -/

theorem stats_lhs_0 (j : S512x4096.Idx) (k : dot_S512x128_S128x4096_S512x4096_1_0_0_1_n_n.contr.Idx) :
    (dot_S512x128_S128x4096_S512x4096_1_0_0_1_n_n.lhsIdx j k 0 : ℕ) = j 0 := by
  simp [DotDims.lhsIdx, dot_S512x128_S128x4096_S512x4096_1_0_0_1_n_n]; rfl
theorem stats_lhs_1 (j : S512x4096.Idx) (k : dot_S512x128_S128x4096_S512x4096_1_0_0_1_n_n.contr.Idx) :
    (dot_S512x128_S128x4096_S512x4096_1_0_0_1_n_n.lhsIdx j k 1 : ℕ) = k ⟨0, by decide⟩ := by
  simp [DotDims.lhsIdx, dot_S512x128_S128x4096_S512x4096_1_0_0_1_n_n]; rfl
theorem stats_rhs_0 (j : S512x4096.Idx) (k : dot_S512x128_S128x4096_S512x4096_1_0_0_1_n_n.contr.Idx) :
    (dot_S512x128_S128x4096_S512x4096_1_0_0_1_n_n.rhsIdx j k 0 : ℕ) = k ⟨0, by decide⟩ := by
  simp [DotDims.rhsIdx, dot_S512x128_S128x4096_S512x4096_1_0_0_1_n_n]; rfl
theorem stats_rhs_1 (j : S512x4096.Idx) (k : dot_S512x128_S128x4096_S512x4096_1_0_0_1_n_n.contr.Idx) :
    (dot_S512x128_S128x4096_S512x4096_1_0_0_1_n_n.rhsIdx j k 1 : ℕ) = j 1 := by
  simp [DotDims.rhsIdx, dot_S512x128_S128x4096_S512x4096_1_0_0_1_n_n]; rfl

/-- The first product of a block at (h, l): the channel sum of w1[h, ch] * x[0, ch, l]. -/
theorem stats_pre_apply (x : Vec Ideal S1x128x4096 .f32) (w : Vec Ideal S512x128 .f32) (h : Fin 512) (l : Fin 4096) :
    k0_pay1 (F := Ideal) x w (ix2 h l) = ∑ ch : Fin 128, w (ix2 h ch) * x (ix3 (0 : Fin 1) ch l) := by
  unfold k0_pay1
  simp only [matmul]
  rw [Ideal.matmul_constant_zero_apply,
    ← Equiv.sum_comp (contrEquiv1 dot_S512x128_S128x4096_S512x4096_1_0_0_1_n_n 128 rfl rfl).symm]
  refine Finset.sum_congr rfl fun ch _ => ?_
  have e := contrEquiv1_symm_val dot_S512x128_S128x4096_S512x4096_1_0_0_1_n_n 128 rfl rfl ch
  refine congrArg₂ (· * ·) (congrArg w (funext fun a => Fin.ext ?_)) ?_
  · match a with
    | ⟨0, _⟩ => exact stats_lhs_0 _ _
    | ⟨1, _⟩ => exact (stats_lhs_1 _ _).trans e
  · refine (congrArg (shapeCast S128x4096 x shapeCasts_S1x128x4096_S128x4096) (funext fun a => Fin.ext ?_)).trans
      (shapeCast_1ab_ab_apply x shapeCasts_S1x128x4096_S128x4096 ch l)
    match a with
    | ⟨0, _⟩ => exact (stats_rhs_0 _ _).trans e
    | ⟨1, _⟩ => exact stats_rhs_1 _ _

/-- A column [512, 1] holding zero plus a vector [512] cast to a column, cast to [1, 512, 1]: at (a, h, b), the
    vector at h. -/
theorem stats_column_apply (v : FVec Ideal S512 .f32) (a : Fin 1) (h : Fin 512) (b : Fin 1) :
    shapeCast S1x512x1 (addf (broadcast S512x1 (Scalar.ofBits (F := Ideal) .f32 0x00000000#32))
        (shapeCast S512x1 v shapeCasts_S512_S512x1)) shapeCasts_S512x1_S1x512x1 (ix3 a h b) = v (ix1 h) := by
  rw [shapeCast_ab_1ab_apply _ shapeCasts_S512x1_S1x512x1 a h b, addf_apply, broadcast_apply]
  rw [shapeCast_apply v shapeCasts_S512_S512x1 (ix2 h b) (ix1 h) (by
    rw [Shape.rowMajor_val_one, Shape.rowMajor_val_two]
    show h.val = h.val * 1 + b.val
    omega)]
  show Ideal.ofBits .f32 0x00000000#32 + v (ix1 h) = v (ix1 h)
  rw [Ideal.ofBits_zero_f32, zero_add]

/-- The first stored column at (a, h, b): the sum over the block's positions of the first product. -/
theorem stats_sum_apply (x : Vec Ideal S1x128x4096 .f32) (w : Vec Ideal S512x128 .f32) (a : Fin 1) (h : Fin 512) (b : Fin 1) :
    k0_pay2 (F := Ideal) x w (ix3 a h b) = ∑ l : Fin 4096, ∑ ch : Fin 128, w (ix2 h ch) * x (ix3 (0 : Fin 1) ch l) := by
  unfold k0_pay2
  refine (stats_column_apply _ a h b).trans ?_
  refine (Cert.LibKeepdims.lane_sum_apply (k0_pay1 (F := Ideal) x w) reduces_S512x4096_S512 (.inl rfl) rfl h).trans ?_
  exact Finset.sum_congr rfl fun l _ => stats_pre_apply x w h l

/-- The second stored column at (a, h, b): the sum over the block's positions of the first product's square. -/
theorem stats_sumsq_apply (x : Vec Ideal S1x128x4096 .f32) (w : Vec Ideal S512x128 .f32) (a : Fin 1) (h : Fin 512) (b : Fin 1) :
    k0_pay3 (F := Ideal) x w (ix3 a h b)
      = ∑ l : Fin 4096, (∑ ch : Fin 128, w (ix2 h ch) * x (ix3 (0 : Fin 1) ch l)) * (∑ ch : Fin 128, w (ix2 h ch) * x (ix3 (0 : Fin 1) ch l)) := by
  unfold k0_pay3
  refine (stats_column_apply _ a h b).trans ?_
  refine (Cert.LibKeepdims.lane_sum_apply (mulf (k0_pay1 (F := Ideal) x w) (k0_pay1 (F := Ideal) x w)) reduces_S512x4096_S512 (.inl rfl) rfl h).trans ?_
  refine Finset.sum_congr rfl fun l _ => ?_
  rw [mulf_apply, stats_pre_apply x w h l]

/-! ## From blocks to the arrays

Grid point t = 2n + tt of the 32 x 2 grid reads item n, half tt of the positions, and writes chunk t of each output. -/

theorem stats_zero3 : (![0, 0, 0] : Fin 3 → Nat) = fun _ => 0 := funext fun a => by fin_cases a <;> rfl
theorem stats_zero2 : (![0, 0] : Fin 2 → Nat) = fun _ => 0 := funext fun a => by fin_cases a <;> rfl

/-- The index maps over the grid: the input block is item t / 2, half t % 2; the weight is one block; each output's
    block is chunk t. -/
theorem stats_index_facts : ∀ t : Fin cfg0.N,
    win0_0.index t (0 : Fin 3) = t.val / 2 ∧ win0_0.index t (1 : Fin 3) = 0 ∧ win0_0.index t (2 : Fin 3) = t.val % 2
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The input block at point t, at (a, ch, l), is the input at item t / 2, channel ch, position 4096 (t % 2) + l. -/
theorem stats_x_block (c : Dev nD) (t : Fin cfg0.N) (a : Fin 1) (ch : Fin 128) (l : Fin 4096) (n : Fin 32) (p : Fin 8192)
    (hn : n.val = t.val / 2) (hp : p.val = 4096 * (t.val % 2) + l.val) :
    (iblk0 V c 0 t : Vec Ideal S1x128x4096 .f32) (ix3 a ch l) = V c main_arg0 (ix3 n ch p) := by
  obtain ⟨e0, e1, e2, -⟩ := stats_index_facts t
  show V c main_arg0 (((cfg0.win 0).blk t).view.emb (ix3 a ch l)) = V c main_arg0 (ix3 n ch p)
  refine congrArg _ (funext fun ax => Fin.ext ?_)
  match ax with
  | ⟨0, _⟩ => show win0_0.index t (0 : Fin 3) * 1 + 1 * a.val = n.val; omega
  | ⟨1, _⟩ => show win0_0.index t (1 : Fin 3) * 128 + 1 * ch.val = ch.val; omega
  | ⟨2, _⟩ => show win0_0.index t (2 : Fin 3) * 4096 + 1 * l.val = p.val; omega

/-- The weight's block at any point is the weight. -/
theorem stats_w_block (c : Dev nD) (t : Fin cfg0.N) (h : Fin 512) (ch : Fin 128) :
    (iblk0 V c 1 t : Vec Ideal S512x128 .f32) (ix2 h ch) = V c main_arg1 (ix2 h ch) := by
  obtain ⟨-, -, -, e3, e4, -⟩ := stats_index_facts t
  show V c main_arg1 (((cfg0.win 1).blk t).view.emb (ix2 h ch)) = V c main_arg1 (ix2 h ch)
  refine congrArg _ (funext fun ax => Fin.ext ?_)
  match ax with
  | ⟨0, _⟩ => show win0_1.index t (0 : Fin 2) * 512 + 1 * h.val = h.val; omega
  | ⟨1, _⟩ => show win0_1.index t (1 : Fin 2) * 128 + 1 * ch.val = ch.val; omega

/-- The first product of point t's blocks at (h, l) is the reference's first product at item t / 2, position
    4096 (t % 2) + l. -/
theorem stats_pre_block (c : Dev nD) (t : Fin cfg0.N) (x : Vec Ideal S1x128x4096 .f32) (w : Vec Ideal S512x128 .f32)
    (hx : x = iblk0 V c 0 t) (hw : w = iblk0 V c 1 t) (k : Fin 64) (hk : k.val = t.val) (h : Fin 512) (l : Fin 4096) :
    (∑ ch : Fin 128, w (ix2 h ch) * x (ix3 (0 : Fin 1) ch l))
      = Cert.Mlp.rPre (fun n ch l => V c main_arg0 (ix3 n ch l)) (fun h ch => V c main_arg1 (ix2 h ch))
          (Cert.Mlp.kn k) h (Cert.Mlp.lt (Cert.Mlp.kt k) l) := by
  subst hx hw
  unfold Cert.Mlp.rPre
  exact Finset.sum_congr rfl fun ch _ => congrArg₂ (· * ·) (stats_w_block V c t h ch)
    (stats_x_block V c t 0 ch l (Cert.Mlp.kn k) (Cert.Mlp.lt (Cert.Mlp.kt k) l)
      (by show k.val / 2 = t.val / 2; rw [hk]) (by show 4096 * (k.val % 2) + l.val = 4096 * (t.val % 2) + l.val; rw [hk]))

/-- So the position sums of point t's blocks are the reference's chunk sums at chunk t. -/
theorem stats_sum_block (c : Dev nD) (t : Fin cfg0.N) (x : Vec Ideal S1x128x4096 .f32) (w : Vec Ideal S512x128 .f32)
    (hx : x = iblk0 V c 0 t) (hw : w = iblk0 V c 1 t) (k : Fin 64) (hk : k.val = t.val) (h h' : Fin 512) (hh : h'.val = h.val) :
    (∑ l : Fin 4096, ∑ ch : Fin 128, w (ix2 h ch) * x (ix3 (0 : Fin 1) ch l))
      = Cert.Mlp.rPs (fun n ch l => V c main_arg0 (ix3 n ch l)) (fun h ch => V c main_arg1 (ix2 h ch)) k h' := by
  obtain rfl : h' = h := Fin.ext hh
  unfold Cert.Mlp.rPs
  exact Finset.sum_congr rfl fun l _ => stats_pre_block V c t x w hx hw k hk h' l

theorem stats_sumsq_block (c : Dev nD) (t : Fin cfg0.N) (x : Vec Ideal S1x128x4096 .f32) (w : Vec Ideal S512x128 .f32)
    (hx : x = iblk0 V c 0 t) (hw : w = iblk0 V c 1 t) (k : Fin 64) (hk : k.val = t.val) (h h' : Fin 512) (hh : h'.val = h.val) :
    (∑ l : Fin 4096, (∑ ch : Fin 128, w (ix2 h ch) * x (ix3 (0 : Fin 1) ch l)) * (∑ ch : Fin 128, w (ix2 h ch) * x (ix3 (0 : Fin 1) ch l)))
      = Cert.Mlp.rPss (fun n ch l => V c main_arg0 (ix3 n ch l)) (fun h ch => V c main_arg1 (ix2 h ch)) k h' := by
  obtain rfl : h' = h := Fin.ext hh
  unfold Cert.Mlp.rPss
  exact Finset.sum_congr rfl fun l _ => by rw [stats_pre_block V c t x w hx hw k hk h' l]

/-- An index of an output array is in point t's block iff each coordinate is in the block's range on its axis. -/
theorem stats_mem_blk2 (t : Fin cfg0.N) (i : S64x512x1.Idx) :
    i ∈ ((cfg0.win 2).blk t).view.set ↔ ∀ a : Fin 3, win0_2.index t a * S1x512x1.size a ≤ (i a).val ∧ (i a).val < win0_2.index t a * S1x512x1.size a + S1x512x1.size a := by
  show i ∈ ((View.whole main_v0_0).slice (win0_2.rect t)).set ↔ _
  rw [View.set_slice_whole, Rect.mem_set_unit]
  exact Iff.rfl

theorem stats_mem_blk3 (t : Fin cfg0.N) (i : S64x512x1.Idx) :
    i ∈ ((cfg0.win 3).blk t).view.set ↔ ∀ a : Fin 3, win0_3.index t a * S1x512x1.size a ≤ (i a).val ∧ (i a).val < win0_3.index t a * S1x512x1.size a + S1x512x1.size a := by
  show i ∈ ((View.whole main_v0_1).slice (win0_3.rect t)).set ↔ _
  rw [View.set_slice_whole, Rect.mem_set_unit]
  exact Iff.rfl

/-- What point t writes back to the first output is block t of the chunk sums of the first product. -/
theorem stats_flushed_sum (c : Dev nD) (t : Fin cfg0.N) :
    (dat0 V c).flushed 2 t = ((cfg0.win 2).blk t).view.read (Elt Ideal)
      (fun i : S64x512x1.Idx => Cert.Mlp.rPs (fun n ch l => V c main_arg0 (ix3 n ch l)) (fun h ch => V c main_arg1 (ix2 h ch)) (i 0) (i 1)) := by
  show (cfg0.win 2).cut (grid0.coords t) ((dat0 V c).after 2 t) = _
  rw [after0_2]
  unfold out0_2
  rw [View.canon_unit_zero stats_zero3]
  simp only [View.ld_unit_zero (S := S1x128x4096) stats_zero3, View.ld_unit_zero (S := S512x128) stats_zero2]
  obtain ⟨-, -, -, -, -, e5, e6, e7, -⟩ := stats_index_facts t
  funext j
  obtain ⟨a, h, b, rfl⟩ : ∃ (a : Fin 1) (h : Fin 512) (b : Fin 1), j = ix3 a h b :=
    ⟨j 0, j 1, j 2, eq_ix3 (n0 := 1) (n1 := 512) (n2 := 1) j⟩
  show k0_pay2 (F := Ideal) (iblk0 V c 0 t) (iblk0 V c 1 t) (ix3 a h b)
    = Cert.Mlp.rPs (fun n ch l => V c main_arg0 (ix3 n ch l)) (fun h ch => V c main_arg1 (ix2 h ch))
        ((((cfg0.win 2).blk t).view.emb (ix3 a h b)) 0) ((((cfg0.win 2).blk t).view.emb (ix3 a h b)) 1)
  refine (stats_sum_apply (iblk0 V c 0 t) (iblk0 V c 1 t) a h b).trans
    (stats_sum_block V c t (iblk0 V c 0 t) (iblk0 V c 1 t) rfl rfl _ ?_ h _ ?_)
  · show win0_2.index t (0 : Fin 3) * 1 + 1 * a.val = t.val; omega
  · show win0_2.index t (1 : Fin 3) * 512 + 1 * h.val = h.val; omega

/-- What point t writes back to the second output is block t of the chunk sums of the first product's square. -/
theorem stats_flushed_sumsq (c : Dev nD) (t : Fin cfg0.N) :
    (dat0 V c).flushed 3 t = ((cfg0.win 3).blk t).view.read (Elt Ideal)
      (fun i : S64x512x1.Idx => Cert.Mlp.rPss (fun n ch l => V c main_arg0 (ix3 n ch l)) (fun h ch => V c main_arg1 (ix2 h ch)) (i 0) (i 1)) := by
  show (cfg0.win 3).cut (grid0.coords t) ((dat0 V c).after 3 t) = _
  rw [after0_3]
  unfold out0_3
  rw [View.canon_unit_zero stats_zero3]
  simp only [View.ld_unit_zero (S := S1x128x4096) stats_zero3, View.ld_unit_zero (S := S512x128) stats_zero2]
  obtain ⟨-, -, -, -, -, -, -, -, e8, e9, e10⟩ := stats_index_facts t
  funext j
  obtain ⟨a, h, b, rfl⟩ : ∃ (a : Fin 1) (h : Fin 512) (b : Fin 1), j = ix3 a h b :=
    ⟨j 0, j 1, j 2, eq_ix3 (n0 := 1) (n1 := 512) (n2 := 1) j⟩
  show k0_pay3 (F := Ideal) (iblk0 V c 0 t) (iblk0 V c 1 t) (ix3 a h b)
    = Cert.Mlp.rPss (fun n ch l => V c main_arg0 (ix3 n ch l)) (fun h ch => V c main_arg1 (ix2 h ch))
        ((((cfg0.win 3).blk t).view.emb (ix3 a h b)) 0) ((((cfg0.win 3).blk t).view.emb (ix3 a h b)) 1)
  refine (stats_sumsq_apply (iblk0 V c 0 t) (iblk0 V c 1 t) a h b).trans
    (stats_sumsq_block V c t (iblk0 V c 0 t) (iblk0 V c 1 t) rfl rfl _ ?_ h _ ?_)
  · show win0_3.index t (0 : Fin 3) * 1 + 1 * a.val = t.val; omega
  · show win0_3.index t (1 : Fin 3) * 512 + 1 * h.val = h.val; omega

/-- Chunk k of either output is in point k's block. -/
theorem stats_cover2 (i : S64x512x1.Idx) :
    ∃ t : Fin cfg0.N, (cfg0.win 2).flush t = true ∧ i ∈ ((cfg0.win 2).blk t).view.set := by
  have hN : grid0.N = 64 := N_0
  have h0 : (i 0).val < 64 := (i 0).isLt
  have h1 : (i 1).val < 512 := (i 1).isLt
  have h2 : (i 2).val < 1 := (i 2).isLt
  obtain ⟨t, ht⟩ : ∃ t : Fin cfg0.N, t.val = (i 0).val := ⟨⟨(i 0).val, by show (i 0).val < grid0.N; omega⟩, rfl⟩
  obtain ⟨-, -, -, -, -, e5, e6, e7, -⟩ := stats_index_facts t
  refine ⟨t, flush0_2 t, ?_⟩
  rw [stats_mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 1 ≤ (i 2).val ∧ (i 2).val < win0_2.index t (2 : Fin 3) * 1 + 1; omega

theorem stats_cover3 (i : S64x512x1.Idx) :
    ∃ t : Fin cfg0.N, (cfg0.win 3).flush t = true ∧ i ∈ ((cfg0.win 3).blk t).view.set := by
  have hN : grid0.N = 64 := N_0
  have h0 : (i 0).val < 64 := (i 0).isLt
  have h1 : (i 1).val < 512 := (i 1).isLt
  have h2 : (i 2).val < 1 := (i 2).isLt
  obtain ⟨t, ht⟩ : ∃ t : Fin cfg0.N, t.val = (i 0).val := ⟨⟨(i 0).val, by show (i 0).val < grid0.N; omega⟩, rfl⟩
  obtain ⟨-, -, -, -, -, -, -, -, e8, e9, e10⟩ := stats_index_facts t
  refine ⟨t, flush0_3 t, ?_⟩
  rw [stats_mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1 ≤ (i 2).val ∧ (i 2).val < win0_3.index t (2 : Fin 3) * 1 + 1; omega

/-- After the statistics region, chunk k of the first output array is the chunk's partial sum of the first
    product, of the input and the first weight as the region found them, -/
theorem psum_parts (c : Dev nD) :
    (dat0 V c).arrAt 2 cfg0.N
      = fun i => Cert.Mlp.rPs (fun n ch l => V c main_arg0 (ix3 n ch l)) (fun h ch => V c main_arg1 (ix2 h ch)) (i 0) (i 1) := by
  exact (dat0 V c).arrAt_eq_of_cover 2 _ (fun t _ => stats_flushed_sum V c t) stats_cover2

/-- and chunk k of the second the partial sum of its square. -/
theorem psumsq_parts (c : Dev nD) :
    (dat0 V c).arrAt 3 cfg0.N
      = fun i => Cert.Mlp.rPss (fun n ch l => V c main_arg0 (ix3 n ch l)) (fun h ch => V c main_arg1 (ix2 h ch)) (i 0) (i 1) := by
  exact (dat0 V c).arrAt_eq_of_cover 3 _ (fun t _ => stats_flushed_sumsq V c t) stats_cover3

end Cert.ReferenceIdeal.Val

end
-- ==== Proof.RReg1.lean ====
import proofs.«132259_g2000306565302007_pallasbulk_1216_5_alg».proof.Proof.Gen.ReferenceIdeal.Frame
import proofs.«132259_g2000306565302007_pallasbulk_1216_5_alg».proof.Proof.Spec
import proofs.«132259_g2000306565302007_pallasbulk_1216_5_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Val

open Idealize.ShloMosaic Idealize.ShloMosaic.TcCoe Idealize.ShloMosaic.ValueIdx Idealize.SL.Sem
open Idealize.ShloMosaic.Pipeline (Dat Cfg Window)
open Cert.ReferenceIdeal Cert.ReferenceIdeal.Gen

variable (V : (c : Dev nD) → (b : Ref sig .tc) → Buf (Elt Ideal) ((c : Thread nD τ).loc b))

/-! ## The two block products at an index

Each product contracts the left operand's axis 1 with the right operand's axis 0 into a zero accumulator: at (p, q)
it is the sum over the contracted coordinate k of left (p, k) times right (k, q). -/

theorem apply_lhs_first_0 (j : S512x4096.Idx) (k : dot_S512x128_S128x4096_S512x4096_1_0_0_1_n_n.contr.Idx) :
    (dot_S512x128_S128x4096_S512x4096_1_0_0_1_n_n.lhsIdx j k 0 : ℕ) = j 0 := by
  simp [DotDims.lhsIdx, dot_S512x128_S128x4096_S512x4096_1_0_0_1_n_n]; rfl
theorem apply_lhs_first_1 (j : S512x4096.Idx) (k : dot_S512x128_S128x4096_S512x4096_1_0_0_1_n_n.contr.Idx) :
    (dot_S512x128_S128x4096_S512x4096_1_0_0_1_n_n.lhsIdx j k 1 : ℕ) = k ⟨0, by decide⟩ := by
  simp [DotDims.lhsIdx, dot_S512x128_S128x4096_S512x4096_1_0_0_1_n_n]; rfl
theorem apply_rhs_first_0 (j : S512x4096.Idx) (k : dot_S512x128_S128x4096_S512x4096_1_0_0_1_n_n.contr.Idx) :
    (dot_S512x128_S128x4096_S512x4096_1_0_0_1_n_n.rhsIdx j k 0 : ℕ) = k ⟨0, by decide⟩ := by
  simp [DotDims.rhsIdx, dot_S512x128_S128x4096_S512x4096_1_0_0_1_n_n]; rfl
theorem apply_rhs_first_1 (j : S512x4096.Idx) (k : dot_S512x128_S128x4096_S512x4096_1_0_0_1_n_n.contr.Idx) :
    (dot_S512x128_S128x4096_S512x4096_1_0_0_1_n_n.rhsIdx j k 1 : ℕ) = j 1 := by
  simp [DotDims.rhsIdx, dot_S512x128_S128x4096_S512x4096_1_0_0_1_n_n]; rfl

/-- The first product, weight [512,128] times input block [128,4096], at (h, l). -/
theorem apply_first_product (W : FVec Ideal S512x128 .f32) (X : FVec Ideal S128x4096 .f32) (h : Fin 512) (l : Fin 4096) :
    matmul dot_S512x128_S128x4096_S512x4096_1_0_0_1_n_n none W X (constant (F := Ideal) S512x4096 .f32 0x00000000#32) (ix2 h l)
      = ∑ ch : Fin 128, W (ix2 h ch) * X (ix2 ch l) := by
  show FloatOps.matmul _ none W X _ (ix2 h l) = _
  rw [Ideal.matmul_constant_zero_apply,
    ← Equiv.sum_comp (contrEquiv1 dot_S512x128_S128x4096_S512x4096_1_0_0_1_n_n 128 rfl rfl).symm]
  refine Finset.sum_congr rfl fun ch _ => ?_
  have hc := contrEquiv1_symm_val dot_S512x128_S128x4096_S512x4096_1_0_0_1_n_n 128 rfl rfl ch
  have hl : dot_S512x128_S128x4096_S512x4096_1_0_0_1_n_n.lhsIdx (ix2 h l)
      ((contrEquiv1 dot_S512x128_S128x4096_S512x4096_1_0_0_1_n_n 128 rfl rfl).symm ch) = ix2 h ch := by
    funext ax; apply Fin.ext
    match ax with
    | ⟨0, _⟩ => exact apply_lhs_first_0 _ _
    | ⟨1, _⟩ => exact (apply_lhs_first_1 _ _).trans hc
  have hr : dot_S512x128_S128x4096_S512x4096_1_0_0_1_n_n.rhsIdx (ix2 h l)
      ((contrEquiv1 dot_S512x128_S128x4096_S512x4096_1_0_0_1_n_n 128 rfl rfl).symm ch) = ix2 ch l := by
    funext ax; apply Fin.ext
    match ax with
    | ⟨0, _⟩ => exact (apply_rhs_first_0 _ _).trans hc
    | ⟨1, _⟩ => exact apply_rhs_first_1 _ _
  rw [hl, hr]

theorem apply_lhs_second_0 (j : S256x4096.Idx) (k : dot_S256x512_S512x4096_S256x4096_1_0_0_1_n_n.contr.Idx) :
    (dot_S256x512_S512x4096_S256x4096_1_0_0_1_n_n.lhsIdx j k 0 : ℕ) = j 0 := by
  simp [DotDims.lhsIdx, dot_S256x512_S512x4096_S256x4096_1_0_0_1_n_n]; rfl
theorem apply_lhs_second_1 (j : S256x4096.Idx) (k : dot_S256x512_S512x4096_S256x4096_1_0_0_1_n_n.contr.Idx) :
    (dot_S256x512_S512x4096_S256x4096_1_0_0_1_n_n.lhsIdx j k 1 : ℕ) = k ⟨0, by decide⟩ := by
  simp [DotDims.lhsIdx, dot_S256x512_S512x4096_S256x4096_1_0_0_1_n_n]; rfl
theorem apply_rhs_second_0 (j : S256x4096.Idx) (k : dot_S256x512_S512x4096_S256x4096_1_0_0_1_n_n.contr.Idx) :
    (dot_S256x512_S512x4096_S256x4096_1_0_0_1_n_n.rhsIdx j k 0 : ℕ) = k ⟨0, by decide⟩ := by
  simp [DotDims.rhsIdx, dot_S256x512_S512x4096_S256x4096_1_0_0_1_n_n]; rfl
theorem apply_rhs_second_1 (j : S256x4096.Idx) (k : dot_S256x512_S512x4096_S256x4096_1_0_0_1_n_n.contr.Idx) :
    (dot_S256x512_S512x4096_S256x4096_1_0_0_1_n_n.rhsIdx j k 1 : ℕ) = j 1 := by
  simp [DotDims.rhsIdx, dot_S256x512_S512x4096_S256x4096_1_0_0_1_n_n]; rfl

/-- The second product, weight [256,512] times hidden block [512,4096], at (o, l). -/
theorem apply_second_product (W : FVec Ideal S256x512 .f32) (H : FVec Ideal S512x4096 .f32) (o : Fin 256) (l : Fin 4096) :
    matmul dot_S256x512_S512x4096_S256x4096_1_0_0_1_n_n none W H (constant (F := Ideal) S256x4096 .f32 0x00000000#32) (ix2 o l)
      = ∑ h : Fin 512, W (ix2 o h) * H (ix2 h l) := by
  show FloatOps.matmul _ none W H _ (ix2 o l) = _
  rw [Ideal.matmul_constant_zero_apply,
    ← Equiv.sum_comp (contrEquiv1 dot_S256x512_S512x4096_S256x4096_1_0_0_1_n_n 512 rfl rfl).symm]
  refine Finset.sum_congr rfl fun h _ => ?_
  have hc := contrEquiv1_symm_val dot_S256x512_S512x4096_S256x4096_1_0_0_1_n_n 512 rfl rfl h
  have hl : dot_S256x512_S512x4096_S256x4096_1_0_0_1_n_n.lhsIdx (ix2 o l)
      ((contrEquiv1 dot_S256x512_S512x4096_S256x4096_1_0_0_1_n_n 512 rfl rfl).symm h) = ix2 o h := by
    funext ax; apply Fin.ext
    match ax with
    | ⟨0, _⟩ => exact apply_lhs_second_0 _ _
    | ⟨1, _⟩ => exact (apply_lhs_second_1 _ _).trans hc
  have hr : dot_S256x512_S512x4096_S256x4096_1_0_0_1_n_n.rhsIdx (ix2 o l)
      ((contrEquiv1 dot_S256x512_S512x4096_S256x4096_1_0_0_1_n_n 512 rfl rfl).symm h) = ix2 h l := by
    funext ax; apply Fin.ext
    match ax with
    | ⟨0, _⟩ => exact (apply_rhs_second_0 _ _).trans hc
    | ⟨1, _⟩ => exact apply_rhs_second_1 _ _
  rw [hl, hr]

/-! ## The layout operations of the body at an index -/

/-- A column [512,1] cast to its own shape and broadcast across the 4096 positions: at (h, l), the column at h. -/
theorem apply_column (v : FVec Ideal S512x1 .f32) (h₁ : S512x1.ShapeCasts S512x1) (h₂ : S512x1.Broadcasts S512x4096)
    (h : Fin 512) (l : Fin 4096) :
    broadcastTo S512x4096 (shapeCast S512x1 v h₁) h₂ (ix2 h l) = v (ix2 h (0 : Fin 1)) := by
  rw [shapeCast_self]
  refine broadcastTo_apply v h₂ (ix2 h l) (ix2 h (0 : Fin 1)) fun ax => ?_
  match ax with
  | ⟨0, _⟩ => rfl
  | ⟨1, _⟩ => rfl

/-- The input block [1,128,4096] without its unit axis: at (ch, l), the block at (0, ch, l). -/
theorem apply_input_block (x : FVec Ideal S1x128x4096 .f32) (h₁ : S1x128x4096.ShapeCasts S128x4096) (ch : Fin 128) (l : Fin 4096) :
    shapeCast S128x4096 x h₁ (ix2 ch l) = x (ix3 (0 : Fin 1) ch l) := by
  refine shapeCast_apply x h₁ (ix2 ch l) (ix3 (0 : Fin 1) ch l) ?_
  rw [Shape.rowMajor_val_two, Shape.rowMajor_val_three]
  show (0 * 128 + ch.val) * 4096 + l.val = ch.val * 4096 + l.val
  omega

/-- The result [256,4096] with a unit axis in front: at (u, o, l), the result at (o, l). -/
theorem apply_output_block (y : FVec Ideal S256x4096 .f32) (h₁ : S256x4096.ShapeCasts S1x256x4096) (u : Fin 1) (o : Fin 256) (l : Fin 4096) :
    shapeCast S1x256x4096 y h₁ (ix3 u o l) = y (ix2 o l) := by
  refine shapeCast_apply y h₁ (ix3 u o l) (ix2 o l) ?_
  rw [Shape.rowMajor_val_two, Shape.rowMajor_val_three]
  show o.val * 4096 + l.val = (u.val * 256 + o.val) * 4096 + l.val
  have := u.isLt
  omega

/-! ## The body's payload at an index -/

/-- What the body stores, at (u, o, l) of its block: the second weight's row o against the hidden layer at position l,
    the hidden layer being the first product scaled, shifted and cut at zero. -/
theorem apply_body (x2 : Vec Ideal S256x512 .f32) (x3 x4 : Vec Ideal S512x1 .f32) (x0 : Vec Ideal S1x128x4096 .f32)
    (x1 : Vec Ideal S512x128 .f32) (u : Fin 1) (o : Fin 256) (l : Fin 4096) :
    k1_pay1 (F := Ideal) x2 x3 x4 x0 x1 (ix3 u o l)
      = ∑ h : Fin 512, x2 (ix2 o h) * max ((∑ ch : Fin 128, x1 (ix2 h ch) * x0 (ix3 (0 : Fin 1) ch l)) * x3 (ix2 h (0 : Fin 1))
          + x4 (ix2 h (0 : Fin 1))) 0 := by
  unfold k1_pay1
  rw [apply_output_block, apply_second_product]
  refine Finset.sum_congr rfl fun h _ => ?_
  rw [maximumf_apply, addf_apply, mulf_apply, broadcast_apply, apply_column, apply_column, apply_first_product]
  simp only [apply_input_block]
  show _ * max _ (Ideal.ofBits .f32 0x00000000#32) = _
  rw [Ideal.ofBits_zero_f32]

/-! ## From blocks to the array -/

theorem apply_hz2 : (![0, 0] : Fin 2 → Nat) = fun _ => 0 := funext fun a => by fin_cases a <;> rfl
theorem apply_hz3 : (![0, 0, 0] : Fin 3 → Nat) = fun _ => 0 := funext fun a => by fin_cases a <;> rfl

/-- The result array as one function of the arrays the region finds: the reference's output function. -/
abbrev apply_fn (c : Dev nD) : S32x256x8192.Idx → Elt Ideal .f32 := fun i =>
  Cert.Mlp.rOut (fun n ch l => V c main_arg0 (ix3 n ch l)) (fun h ch => V c main_arg1 (ix2 h ch))
    (fun o h => V c main_arg4 (ix2 o h)) (fun h => V c main_v19 (ix2 h (0 : Fin 1)))
    (fun h => V c main_v20 (ix2 h (0 : Fin 1))) (i 0) (i 1) (i 2)

/-- The printed index maps, decided over the 64 grid points: the input's block moves with the output's block (same
    item, same half of the positions, channel block 0), the output's block indices stay in range, and the two weights
    and the two columns are always block (0, 0). -/
theorem apply_index_facts : ∀ t : Fin cfg1.N,
    win1_0.index t (0 : Fin 3) = win1_5.index t (0 : Fin 3)
    ∧ win1_0.index t (1 : Fin 3) = 0
    ∧ win1_0.index t (2 : Fin 3) = win1_5.index t (2 : Fin 3)
    ∧ win1_5.index t (1 : Fin 3) = 0
    ∧ win1_5.index t (0 : Fin 3) ≤ 31
    ∧ win1_5.index t (2 : Fin 3) ≤ 1
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Every (item, half) is some grid point's output block. -/
theorem apply_index_onto : ∀ (q0 : Fin 32) (q2 : Fin 2), ∃ t : Fin cfg1.N, win1_5.index t = ![q0.val, 0, q2.val] :=
  (by decide +kernel : ∀ (q0 : Fin 32) (q2 : Fin 2), ∃ t : Fin grid1.N, win1_5.index t = ![q0.val, 0, q2.val])

/-- The input's block at point t, at (0, ch, l), is the input at the output block's item and at global position
    4096 * half + l. -/
theorem apply_input_read (c : Dev nD) (t : Fin cfg1.N) (ch : Fin 128) (l : Fin 4096) (n : Fin 32) (g : Fin 8192)
    (hn : n.val = win1_5.index t (0 : Fin 3)) (hg : g.val = win1_5.index t (2 : Fin 3) * 4096 + l.val) :
    (iblk1 V c 0 t : Vec Ideal S1x128x4096 .f32) (ix3 (0 : Fin 1) ch l) = V c main_arg0 (ix3 n ch g) := by
  obtain ⟨e0, e1, e2, -⟩ := apply_index_facts t
  unfold iblk1
  rw [View.read_apply]
  show V c main_arg0 _ = V c main_arg0 _
  congr 1
  funext a
  apply Fin.ext
  match a with
  | ⟨0, _⟩ => show win1_0.index t (0 : Fin 3) * 1 + 1 * 0 = n.val; omega
  | ⟨1, _⟩ => show win1_0.index t (1 : Fin 3) * 128 + 1 * ch.val = ch.val; omega
  | ⟨2, _⟩ => show win1_0.index t (2 : Fin 3) * 4096 + 1 * l.val = g.val; omega

/-- The first weight's block is the whole weight. -/
theorem apply_first_weight_read (c : Dev nD) (t : Fin cfg1.N) (h : Fin 512) (ch : Fin 128) :
    (iblk1 V c 1 t : Vec Ideal S512x128 .f32) (ix2 h ch) = V c main_arg1 (ix2 h ch) := by
  obtain ⟨-, -, -, -, -, -, e0, e1, -⟩ := apply_index_facts t
  unfold iblk1
  rw [View.read_apply]
  show V c main_arg1 _ = V c main_arg1 _
  congr 1
  funext a
  apply Fin.ext
  match a with
  | ⟨0, _⟩ => show win1_1.index t (0 : Fin 2) * 512 + 1 * h.val = h.val; omega
  | ⟨1, _⟩ => show win1_1.index t (1 : Fin 2) * 128 + 1 * ch.val = ch.val; omega

/-- The second weight's block is the whole weight. -/
theorem apply_second_weight_read (c : Dev nD) (t : Fin cfg1.N) (o : Fin 256) (h : Fin 512) :
    (iblk1 V c 2 t : Vec Ideal S256x512 .f32) (ix2 o h) = V c main_arg4 (ix2 o h) := by
  obtain ⟨-, -, -, -, -, -, -, -, e0, e1, -⟩ := apply_index_facts t
  unfold iblk1
  rw [View.read_apply]
  show V c main_arg4 _ = V c main_arg4 _
  congr 1
  funext a
  apply Fin.ext
  match a with
  | ⟨0, _⟩ => show win1_2.index t (0 : Fin 2) * 256 + 1 * o.val = o.val; omega
  | ⟨1, _⟩ => show win1_2.index t (1 : Fin 2) * 512 + 1 * h.val = h.val; omega

/-- The scale column's block is the whole column. -/
theorem apply_scale_read (c : Dev nD) (t : Fin cfg1.N) (h : Fin 512) :
    (iblk1 V c 3 t : Vec Ideal S512x1 .f32) (ix2 h (0 : Fin 1)) = V c main_v19 (ix2 h (0 : Fin 1)) := by
  obtain ⟨-, -, -, -, -, -, -, -, -, -, e0, e1, -⟩ := apply_index_facts t
  unfold iblk1
  rw [View.read_apply]
  show V c main_v19 _ = V c main_v19 _
  congr 1
  funext a
  apply Fin.ext
  match a with
  | ⟨0, _⟩ => show win1_3.index t (0 : Fin 2) * 512 + 1 * h.val = h.val; omega
  | ⟨1, _⟩ => show win1_3.index t (1 : Fin 2) * 1 + 1 * 0 = 0; omega

/-- The shift column's block is the whole column. -/
theorem apply_shift_read (c : Dev nD) (t : Fin cfg1.N) (h : Fin 512) :
    (iblk1 V c 4 t : Vec Ideal S512x1 .f32) (ix2 h (0 : Fin 1)) = V c main_v20 (ix2 h (0 : Fin 1)) := by
  obtain ⟨-, -, -, -, -, -, -, -, -, -, -, -, e0, e1⟩ := apply_index_facts t
  unfold iblk1
  rw [View.read_apply]
  show V c main_v20 _ = V c main_v20 _
  congr 1
  funext a
  apply Fin.ext
  match a with
  | ⟨0, _⟩ => show win1_4.index t (0 : Fin 2) * 512 + 1 * h.val = h.val; omega
  | ⟨1, _⟩ => show win1_4.index t (1 : Fin 2) * 1 + 1 * 0 = 0; omega

/-- The body's payload of the blocks at point t, at an index of its block, is the output function at the index's
    place in the array. -/
theorem apply_block_eq (c : Dev nD) (t : Fin cfg1.N) (j : S1x256x4096.Idx) :
    k1_pay1 (F := Ideal) (iblk1 V c 2 t) (iblk1 V c 3 t) (iblk1 V c 4 t) (iblk1 V c 0 t) (iblk1 V c 1 t) j
      = apply_fn V c (((cfg1.win 5).blk t).view.emb j) := by
  obtain ⟨-, -, -, e3, e4, e5, -⟩ := apply_index_facts t
  obtain ⟨u, o, l, rfl⟩ : ∃ (u : Fin 1) (o : Fin 256) (l : Fin 4096), j = ix3 u o l := ⟨j 0, j 1, j 2, eq_ix3 j⟩
  have hn : win1_5.index t (0 : Fin 3) < 32 := by omega
  have hg : win1_5.index t (2 : Fin 3) * 4096 + l.val < 8192 := by omega
  rw [apply_body]
  have hE : ((cfg1.win 5).blk t).view.emb (ix3 u o l)
      = ix3 (⟨win1_5.index t (0 : Fin 3), hn⟩ : Fin 32) o (⟨win1_5.index t (2 : Fin 3) * 4096 + l.val, hg⟩ : Fin 8192) := by
    funext a
    apply Fin.ext
    match a with
    | ⟨0, _⟩ => show win1_5.index t (0 : Fin 3) * 1 + 1 * u.val = win1_5.index t (0 : Fin 3); have := u.isLt; omega
    | ⟨1, _⟩ => show win1_5.index t (1 : Fin 3) * 256 + 1 * o.val = o.val; omega
    | ⟨2, _⟩ => show win1_5.index t (2 : Fin 3) * 4096 + 1 * l.val = win1_5.index t (2 : Fin 3) * 4096 + l.val; omega
  rw [hE]
  simp only [apply_second_weight_read, apply_scale_read, apply_shift_read, apply_first_weight_read,
    apply_input_read V c t _ l ⟨win1_5.index t (0 : Fin 3), hn⟩ ⟨win1_5.index t (2 : Fin 3) * 4096 + l.val, hg⟩ rfl rfl]
  rfl

/-- What point t writes back is block t of the output function. -/
theorem apply_flushed_eq (c : Dev nD) (t : Fin cfg1.N) :
    (dat1 V c).flushed 5 t = ((cfg1.win 5).blk t).view.read (Elt Ideal) (apply_fn V c) := by
  show (cfg1.win 5).cut (grid1.coords t) ((dat1 V c).after 5 t) = _
  rw [after1_5]
  unfold out1_5
  rw [View.canon_unit_zero apply_hz3]
  simp only [View.ld_unit_zero (S := S256x512) apply_hz2, View.ld_unit_zero (S := S512x1) apply_hz2,
    View.ld_unit_zero (S := S512x128) apply_hz2, View.ld_unit_zero (S := S1x128x4096) apply_hz3]
  funext j
  exact apply_block_eq V c t j

/-- An index of the array is in point t's block iff each coordinate is in the block's range on its axis. -/
theorem apply_mem_block (t : Fin cfg1.N) (i : S32x256x8192.Idx) :
    i ∈ ((cfg1.win 5).blk t).view.set ↔ ∀ a : Fin 3, win1_5.index t a * S1x256x4096.size a ≤ (i a).val
      ∧ (i a).val < win1_5.index t a * S1x256x4096.size a + S1x256x4096.size a := by
  show i ∈ ((View.whole main_v21).slice (win1_5.rect t)).set ↔ _
  rw [View.set_slice_whole, Rect.mem_set_unit]
  exact Iff.rfl

/-- Every index (n, o, l) of the array is in the block of the point for item n and half l / 4096. -/
theorem apply_covered (i : S32x256x8192.Idx) :
    ∃ t : Fin cfg1.N, (cfg1.win 5).flush t = true ∧ i ∈ ((cfg1.win 5).blk t).view.set := by
  have hi0 : (i 0).val < 32 := (i 0).isLt
  have hi1 : (i 1).val < 256 := (i 1).isLt
  have hi2 : (i 2).val < 8192 := (i 2).isLt
  obtain ⟨t, ht⟩ := apply_index_onto ⟨(i 0).val, hi0⟩ ⟨(i 2).val / 4096, by omega⟩
  have q0 : win1_5.index t (0 : Fin 3) = (i 0).val := congrFun ht 0
  have q1 : win1_5.index t (1 : Fin 3) = 0 := congrFun ht 1
  have q2 : win1_5.index t (2 : Fin 3) = (i 2).val / 4096 := congrFun ht 2
  refine ⟨t, flush1_5 t, ?_⟩
  rw [apply_mem_block]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 4096 ≤ (i 2).val ∧ (i 2).val < win1_5.index t (2 : Fin 3) * 4096 + 4096; omega

/-- After the second region the result array is the reference's output function of the arrays the region found:
    the input, both weights and the scale and shift columns. -/
theorem apply_out (c : Dev nD) :
    (dat1 V c).arrAt 5 cfg1.N
      = fun i => Cert.Mlp.rOut (fun n ch l => V c main_arg0 (ix3 n ch l)) (fun h ch => V c main_arg1 (ix2 h ch))
          (fun o h => V c main_arg4 (ix2 o h)) (fun h => V c main_v19 (ix2 h (0 : Fin 1)))
          (fun h => V c main_v20 (ix2 h (0 : Fin 1))) (i 0) (i 1) (i 2) :=
  (dat1 V c).arrAt_eq_of_cover 5 (apply_fn V c) (fun t _ => apply_flushed_eq V c t) apply_covered

end Cert.ReferenceIdeal.Val

end
-- ==== Proof.RHost.lean ====
import proofs.«132259_g2000306565302007_pallasbulk_1216_5_alg».proof.Proof.Gen.ReferenceIdeal.Frame
import proofs.«132259_g2000306565302007_pallasbulk_1216_5_alg».proof.Proof.Spec
import proofs.«132259_g2000306565302007_pallasbulk_1216_5_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
set_option maxRecDepth 16384

noncomputable section

namespace Cert.ReferenceIdeal.Val

open Idealize.ShloMosaic Idealize.ShloMosaic.TcCoe Idealize.ShloMosaic.ValueIdx Idealize.SL.Sem
open Idealize.ShloMosaic.Pipeline (Dat Cfg Window)
open Cert.ReferenceIdeal Cert.ReferenceIdeal.Gen

variable (V : (c : Dev nD) → (b : Ref sig .tc) → Buf (Elt Ideal) ((c : Thread nD τ).loc b))

/-- The host's fold of 64 partial sums: the sum over the leading axis of a [64, 512, 1] array from the zero word,
    cast from a column [512, 1] to a vector [512]. -/
private abbrev hostSum (x : FVec Ideal S64x512x1 .f32) : FVec Ideal S512 .f32 :=
  shapeCast S512 (Host.reduceAdd (F := Ideal) x (constant S_ .f32 0x00000000#32) reducesTo_S64x512x1_S512x1_d0 h_S_)
    shapeCasts_S512x1_S512

/-- The sums divided by the broadcast word of 2^18. -/
private abbrev hostMean (x : FVec Ideal S64x512x1 .f32) : FVec Ideal S512 .f32 :=
  Host.divf (hostSum x) (broadcastInDim S512 ![] bcast_S_S512 (constant S_ .f32 0x48800000#32))

/-- gamma times the reciprocal root of the clamped variance plus epsilon, as the host forms it. -/
private abbrev hostScale (x0 x1 : FVec Ideal S64x512x1 .f32) (g : FVec Ideal S512 .f32) : FVec Ideal S512 .f32 :=
  mulf g (Host.rsqrt (addf
    (maximumf (subf (hostMean x1) (mulf (hostMean x0) (hostMean x0)))
      (broadcastInDim S512 ![] bcast_S_S512 (constant S_ .f32 0x00000000#32)))
    (broadcastInDim S512 ![] bcast_S_S512 (constant S_ .f32 0x3727C5AC#32))))

/-- beta minus mean times scale, as the host forms it. -/
private abbrev hostShift (x0 x1 : FVec Ideal S64x512x1 .f32) (g b : FVec Ideal S512 .f32) : FVec Ideal S512 .f32 :=
  subf b (mulf (hostMean x0) (hostScale x0 x1 g))

/-- Read at h the fold is the plain sum over the 64 chunks of the array at (k, h, 0). -/
private theorem hostSum_read (x : FVec Ideal S64x512x1 .f32) (h : Fin 512) :
    hostSum x (ix1 h) = ∑ k : Fin 64, x (ix3 k h (0 : Fin 1)) := by
  refine (shapeCast_apply _ shapeCasts_S512x1_S512 (ix1 h) (ix2 h (0 : Fin 1)) ?_).trans ?_
  · rw [Shape.rowMajor_val_one, Shape.rowMajor_val_two]
    show h.val * 1 + 0 = h.val
    omega
  · have hr : S64x512x1.Reduces [0] S512x1 := by decide
    show Ideal.hostReduceAdd reducesTo_S64x512x1_S512x1_d0 x (Ideal.ofBits .f32 0x00000000#32) (ix2 h (0 : Fin 1)) = _
    rw [Ideal.hostReduceAdd_single reducesTo_S64x512x1_S512x1_d0 hr, Ideal.ofBits_zero_f32, zero_add]
    refine Finset.sum_congr rfl fun k _ => congrArg x (funext fun a => Fin.ext ?_)
    match a with
    | ⟨0, _⟩ => rfl
    | ⟨1, _⟩ => rfl
    | ⟨2, _⟩ => rfl

/-- A vector [512] cast to a column [512, 1], read at (h, 0): the vector at h. -/
private theorem column_read {α : Type} (v : S512.Idx → α) (h : Fin 512) :
    shapeCast S512x1 v shapeCasts_S512_S512x1 (ix2 h (0 : Fin 1)) = v (ix1 h) := by
  refine shapeCast_apply v shapeCasts_S512_S512x1 (ix2 h (0 : Fin 1)) (ix1 h) ?_
  rw [Shape.rowMajor_val_one, Shape.rowMajor_val_two]
  show h.val = h.val * 1 + 0
  omega

/-- The host's scale read at h is the batch-norm scale of the two arrays and gamma. -/
private theorem hostScale_read (x0 x1 : FVec Ideal S64x512x1 .f32) (g : FVec Ideal S512 .f32) (h : Fin 512) :
    hostScale x0 x1 g (ix1 h)
      = Cert.Mlp.rScale (fun k h => x0 (ix3 k h (0 : Fin 1))) (fun k h => x1 (ix3 k h (0 : Fin 1))) (fun h => g (ix1 h)) h := by
  show g (ix1 h)
      * Ideal.rsqrt (max (Ideal.div (hostSum x1 (ix1 h)) Cert.Mlp.n18
          - Ideal.div (hostSum x0 (ix1 h)) Cert.Mlp.n18 * Ideal.div (hostSum x0 (ix1 h)) Cert.Mlp.n18)
          (Ideal.ofBits .f32 0x00000000#32) + Cert.Mlp.eps) = _
  rw [hostSum_read, hostSum_read, Ideal.ofBits_zero_f32]
  rfl

/-- The host's shift read at h is the batch-norm shift of the same and beta. -/
private theorem hostShift_read (x0 x1 : FVec Ideal S64x512x1 .f32) (g b : FVec Ideal S512 .f32) (h : Fin 512) :
    hostShift x0 x1 g b (ix1 h)
      = Cert.Mlp.rShift (fun k h => x0 (ix3 k h (0 : Fin 1))) (fun k h => x1 (ix3 k h (0 : Fin 1))) (fun h => g (ix1 h))
          (fun h => b (ix1 h)) h := by
  show b (ix1 h) - Ideal.div (hostSum x0 (ix1 h)) Cert.Mlp.n18 * hostScale x0 x1 g (ix1 h) = _
  rw [hostScale_read, hostSum_read]
  rfl

/-- The host operations between the two regions, from any contents W: the scale column they leave is the
    batch-norm scale of the two partial-sum arrays and gamma as W holds them, -/
theorem scale_read (W : Valuation τ sig (Elt Ideal)) (h : Fin 512) :
    StableHlo.after (hostOps1 (F := Ideal)) W (Proc.devRef .tc main_v19) (ix2 h (0 : Fin 1))
      = Cert.Mlp.rScale (fun k h => W (Proc.devRef .tc main_v0_0) (ix3 k h (0 : Fin 1)))
          (fun k h => W (Proc.devRef .tc main_v0_1) (ix3 k h (0 : Fin 1)))
          (fun h => W (Proc.devRef .tc main_arg2) (ix1 h)) h := by
  after_results_simp
  exact (column_read (hostScale (W (Proc.devRef .tc main_v0_0)) (W (Proc.devRef .tc main_v0_1))
    (W (Proc.devRef .tc main_arg2))) h).trans (hostScale_read _ _ _ h)

/-- and the shift column the batch-norm shift of the same and beta. -/
theorem shift_read (W : Valuation τ sig (Elt Ideal)) (h : Fin 512) :
    StableHlo.after (hostOps1 (F := Ideal)) W (Proc.devRef .tc main_v20) (ix2 h (0 : Fin 1))
      = Cert.Mlp.rShift (fun k h => W (Proc.devRef .tc main_v0_0) (ix3 k h (0 : Fin 1)))
          (fun k h => W (Proc.devRef .tc main_v0_1) (ix3 k h (0 : Fin 1)))
          (fun h => W (Proc.devRef .tc main_arg2) (ix1 h)) (fun h => W (Proc.devRef .tc main_arg3) (ix1 h)) h := by
  after_results_simp
  exact (column_read (hostShift (W (Proc.devRef .tc main_v0_0)) (W (Proc.devRef .tc main_v0_1))
    (W (Proc.devRef .tc main_arg2)) (W (Proc.devRef .tc main_arg3))) h).trans (hostShift_read _ _ _ _ h)

end Cert.ReferenceIdeal.Val

end
-- ==== Proof.RChain.lean ====
import proofs.«132259_g2000306565302007_pallasbulk_1216_5_alg».proof.Proof.RRun
import proofs.«132259_g2000306565302007_pallasbulk_1216_5_alg».proof.Proof.RReg0
import proofs.«132259_g2000306565302007_pallasbulk_1216_5_alg».proof.Proof.RReg1
import proofs.«132259_g2000306565302007_pallasbulk_1216_5_alg».proof.Proof.RHost
import proofs.«132259_g2000306565302007_pallasbulk_1216_5_alg».proof.Proof.Spec
import Idealize.ShloMosaic.Lib.ValueIdx
import Idealize.ShloMosaic.Lib.ValueLayout
import Idealize.ShloMosaic.Lib.Pipeline.Value
import Idealize.ShloMosaic.Lib.StableHlo.Run

/-
  The reference's program from launch to return: the statistics region leaves the partial sums of the first
  product and of its square; the host folds them with gamma and beta into a scale and a shift column; the second
  region turns these and the weights into the result. Read back through the segment boundaries, the result array is
  the reference's output function of the launched arrays.
-/

set_option maxRecDepth 16384

noncomputable section

namespace Cert.ReferenceIdeal.Val

open Idealize.ShloMosaic Idealize.ShloMosaic.TcCoe Idealize.ShloMosaic.ValueIdx Idealize.SL.Sem
open Idealize.ShloMosaic.Pipeline (Dat Cfg Window)
open Cert.ReferenceIdeal Cert.ReferenceIdeal.Gen

variable (m : (ℓ : Loc nD τ sig) → Buf (Elt Ideal) ℓ) (ρ : Dev nD → PrngReg)

/-! ## What the statistics region leaves, in terms of the launch memory -/

/-- The first statistics array holds the partial sums of the first product of the launched input and weight, -/
theorem left_psum (c : Dev nD) :
    W1 m ρ c (Proc.devRef .tc main_v0_0)
      = fun i => Cert.Mlp.rPs (fun n ch l => m ((c : Thread nD τ).loc main_arg0) (ix3 n ch l)) (fun h ch => m ((c : Thread nD τ).loc main_arg1) (ix2 h ch)) (i 0) (i 1) :=
  (W1_arr m ρ c 2).trans (psum_parts (V0 m ρ) c)

/-- the second the partial sums of its square. -/
theorem left_psumsq (c : Dev nD) :
    W1 m ρ c (Proc.devRef .tc main_v0_1)
      = fun i => Cert.Mlp.rPss (fun n ch l => m ((c : Thread nD τ).loc main_arg0) (ix3 n ch l)) (fun h ch => m ((c : Thread nD τ).loc main_arg1) (ix2 h ch)) (i 0) (i 1) :=
  (W1_arr m ρ c 3).trans (psumsq_parts (V0 m ρ) c)

/-! ## What the second region finds -/

theorem entry_x (c : Dev nD) : V2 m ρ c main_arg0 = m ((c : Thread nD τ).loc main_arg0) :=
  calc V2 m ρ c main_arg0
    _ = W1 m ρ c (Proc.devRef .tc main_arg0) := by
          show StableHlo.after (hostOps1 (F := Ideal)) (W1 m ρ c) (Proc.devRef .tc main_arg0) = _
          dsimp only [hostOps1]; after_results
    _ = W0 m ρ c (Proc.devRef .tc main_arg0) :=
          (W1_arr m ρ c 0).trans (((dat0 (V0 m ρ) c).arrAt_in 0 rfl _).trans (A_eq0 (V0 m ρ) c 0))
    _ = m ((c : Thread nD τ).loc main_arg0) := rfl

theorem entry_w1 (c : Dev nD) : V2 m ρ c main_arg1 = m ((c : Thread nD τ).loc main_arg1) :=
  calc V2 m ρ c main_arg1
    _ = W1 m ρ c (Proc.devRef .tc main_arg1) := by
          show StableHlo.after (hostOps1 (F := Ideal)) (W1 m ρ c) (Proc.devRef .tc main_arg1) = _
          dsimp only [hostOps1]; after_results
    _ = W0 m ρ c (Proc.devRef .tc main_arg1) :=
          (W1_arr m ρ c 1).trans (((dat0 (V0 m ρ) c).arrAt_in 1 rfl _).trans (A_eq0 (V0 m ρ) c 1))
    _ = m ((c : Thread nD τ).loc main_arg1) := rfl

theorem entry_w2 (c : Dev nD) : V2 m ρ c main_arg4 = m ((c : Thread nD τ).loc main_arg4) :=
  calc V2 m ρ c main_arg4
    _ = W1 m ρ c (Proc.devRef .tc main_arg4) := by
          show StableHlo.after (hostOps1 (F := Ideal)) (W1 m ρ c) (Proc.devRef .tc main_arg4) = _
          dsimp only [hostOps1]; after_results
    _ = W0 m ρ c (Proc.devRef .tc main_arg4) := W1_of_ne m ρ c main_arg4 (by decide)
    _ = m ((c : Thread nD τ).loc main_arg4) := rfl

/-- The scale column the host fold leaves is the batch-norm scale of the partial sums and gamma, -/
theorem entry_scale (c : Dev nD) (h : Fin 512) :
    V2 m ρ c main_v19 (ix2 h (0 : Fin 1))
      = Cert.Mlp.rScale (Cert.Mlp.rPs (fun n ch l => m ((c : Thread nD τ).loc main_arg0) (ix3 n ch l)) (fun h ch => m ((c : Thread nD τ).loc main_arg1) (ix2 h ch)))
          (Cert.Mlp.rPss (fun n ch l => m ((c : Thread nD τ).loc main_arg0) (ix3 n ch l)) (fun h ch => m ((c : Thread nD τ).loc main_arg1) (ix2 h ch))) (fun h => m ((c : Thread nD τ).loc main_arg2) (ix1 h)) h := by
  refine (scale_read (W1 m ρ c) h).trans ?_
  rw [left_psum, left_psumsq, W1_of_ne m ρ c main_arg2 (by decide)]
  rfl

/-- and the shift column the batch-norm shift of the same and beta. -/
theorem entry_shift (c : Dev nD) (h : Fin 512) :
    V2 m ρ c main_v20 (ix2 h (0 : Fin 1))
      = Cert.Mlp.rShift (Cert.Mlp.rPs (fun n ch l => m ((c : Thread nD τ).loc main_arg0) (ix3 n ch l)) (fun h ch => m ((c : Thread nD τ).loc main_arg1) (ix2 h ch)))
          (Cert.Mlp.rPss (fun n ch l => m ((c : Thread nD τ).loc main_arg0) (ix3 n ch l)) (fun h ch => m ((c : Thread nD τ).loc main_arg1) (ix2 h ch))) (fun h => m ((c : Thread nD τ).loc main_arg2) (ix1 h)) (fun h => m ((c : Thread nD τ).loc main_arg3) (ix1 h)) h := by
  refine (shift_read (W1 m ρ c) h).trans ?_
  rw [left_psum, left_psumsq, W1_of_ne m ρ c main_arg2 (by decide), W1_of_ne m ρ c main_arg3 (by decide)]
  rfl

/-! ## The result array, and the run -/

/-- The result array after the run is the reference's output function of the launched arrays, with the scale and
    shift its host fold makes of its own partial sums. -/
theorem result_eq (c : Dev nD) :
    W3 m ρ c (Proc.devRef .tc main_v21)
      = fun i => Cert.Mlp.rOut (fun n ch l => m ((c : Thread nD τ).loc main_arg0) (ix3 n ch l))
          (fun h ch => m ((c : Thread nD τ).loc main_arg1) (ix2 h ch))
          (fun o h => m ((c : Thread nD τ).loc main_arg4) (ix2 o h))
          (Cert.Mlp.rScale (Cert.Mlp.rPs (fun n ch l => m ((c : Thread nD τ).loc main_arg0) (ix3 n ch l)) (fun h ch => m ((c : Thread nD τ).loc main_arg1) (ix2 h ch)))
            (Cert.Mlp.rPss (fun n ch l => m ((c : Thread nD τ).loc main_arg0) (ix3 n ch l)) (fun h ch => m ((c : Thread nD τ).loc main_arg1) (ix2 h ch))) (fun h => m ((c : Thread nD τ).loc main_arg2) (ix1 h)))
          (Cert.Mlp.rShift (Cert.Mlp.rPs (fun n ch l => m ((c : Thread nD τ).loc main_arg0) (ix3 n ch l)) (fun h ch => m ((c : Thread nD τ).loc main_arg1) (ix2 h ch)))
            (Cert.Mlp.rPss (fun n ch l => m ((c : Thread nD τ).loc main_arg0) (ix3 n ch l)) (fun h ch => m ((c : Thread nD τ).loc main_arg1) (ix2 h ch))) (fun h => m ((c : Thread nD τ).loc main_arg2) (ix1 h)) (fun h => m ((c : Thread nD τ).loc main_arg3) (ix1 h))) (i 0) (i 1) (i 2) := by
  refine (W3_arr m ρ c 5).trans ((apply_out (V2 m ρ) c).trans ?_)
  have hsc : (fun h : Fin 512 => V2 m ρ c main_v19 (ix2 h (0 : Fin 1))) = _ := funext (entry_scale m ρ c)
  have hsh : (fun h : Fin 512 => V2 m ρ c main_v20 (ix2 h (0 : Fin 1))) = _ := funext (entry_shift m ρ c)
  rw [hsc, hsh, entry_x, entry_w1, entry_w2]

/-- Every weakly fair execution of the reference's program terminates with the result array at that function of
    the launched arrays and the arguments unchanged. -/
theorem run_spec : θ_run defs (onTc (τ := τ) (main (F := Ideal))) ⟨m, fun _ => 0, ρ⟩ (fun r => ∀ c : Dev nD,
      r.2.mem ((c.tc : Thread nD τ).loc main_v21)
        = (fun i => Cert.Mlp.rOut (fun n ch l => m ((c : Thread nD τ).loc main_arg0) (ix3 n ch l))
          (fun h ch => m ((c : Thread nD τ).loc main_arg1) (ix2 h ch))
          (fun o h => m ((c : Thread nD τ).loc main_arg4) (ix2 o h))
          (Cert.Mlp.rScale (Cert.Mlp.rPs (fun n ch l => m ((c : Thread nD τ).loc main_arg0) (ix3 n ch l)) (fun h ch => m ((c : Thread nD τ).loc main_arg1) (ix2 h ch)))
            (Cert.Mlp.rPss (fun n ch l => m ((c : Thread nD τ).loc main_arg0) (ix3 n ch l)) (fun h ch => m ((c : Thread nD τ).loc main_arg1) (ix2 h ch))) (fun h => m ((c : Thread nD τ).loc main_arg2) (ix1 h)))
          (Cert.Mlp.rShift (Cert.Mlp.rPs (fun n ch l => m ((c : Thread nD τ).loc main_arg0) (ix3 n ch l)) (fun h ch => m ((c : Thread nD τ).loc main_arg1) (ix2 h ch)))
            (Cert.Mlp.rPss (fun n ch l => m ((c : Thread nD τ).loc main_arg0) (ix3 n ch l)) (fun h ch => m ((c : Thread nD τ).loc main_arg1) (ix2 h ch))) (fun h => m ((c : Thread nD τ).loc main_arg2) (ix1 h)) (fun h => m ((c : Thread nD τ).loc main_arg3) (ix1 h))) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (run_result m ρ)

end Cert.ReferenceIdeal.Val

end
-- ==== Proof.Algebra.lean ====
import proofs.«132259_g2000306565302007_pallasbulk_1216_5_alg».proof.Proof.Spec
import Mathlib.Order.MinMax
import Mathlib.Data.EReal.Basic
import Mathlib.Data.EReal.Operations
import Mathlib.Data.Fintype.EquivFin
import Mathlib.Data.Fintype.BigOperators
import Mathlib.Algebra.BigOperators.Group.Finset.Defs
import Mathlib.Algebra.BigOperators.Group.Finset.Sigma
import Mathlib.Algebra.BigOperators.Ring.Finset
import Mathlib.Analysis.Real.Sqrt
import Mathlib.Tactic.Ring
import Mathlib.Tactic.Positivity
import Mathlib.Tactic.NormNum

noncomputable section

namespace Cert.Mlp

open Idealize.ShloMosaic

/-! ## The three constants -/

/-- The word 0x36800000 is 2^-18, written as the reciprocal of 2^18 = 262144. -/
private theorem k18_eq : k18 = ((1 / 262144 : ℝ) : EReal) := by
  simp [k18, Ideal.ofBits, Ideal.ieee]
  rw [← EReal.coe_mul, EReal.coe_eq_coe_iff]
  norm_num

/-- The word 0x48800000 is 2^18 = 262144. -/
private theorem n18_eq : n18 = ((262144 : ℝ) : EReal) := by
  simp [n18, Ideal.ofBits, Ideal.ieee]
  rw [← EReal.coe_mul, EReal.coe_eq_coe_iff]
  norm_num

/-- The real the word 0x3727C5AC denotes: significand 2^23 + 2606508 = 10995116 at exponent 110 - 127 - 23 = -40. -/
private def epsR : ℝ := 10995116 * (2 : ℝ) ^ (-40 : ℤ)

private theorem eps_eq : eps = ((epsR : ℝ) : EReal) := by
  simp [eps, epsR, Ideal.ofBits, Ideal.ieee]

private theorem epsR_pos : 0 < epsR := by
  unfold epsR
  positivity

/-! ## Coercion of reals into the extended reals commutes with finite sums and with max -/

private theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

private theorem coe_max (a b : ℝ) : ((max a b : ℝ) : EReal) = max (a : EReal) (b : EReal) :=
  Monotone.map_max fun _ _ h => EReal.coe_le_coe_iff.2 h

/-! ## The two reindexings

  (q, b) ↦ 4q + b is a bijection of 8 x 4 onto 32, and (k, l) ↦ (k / 2, 4096 (k % 2) + l) one of 64 x 4096 onto
  32 x 8192: each is injective between finite sets of equal size. -/

private theorem bq_bijective : Function.Bijective fun p : Fin 8 × Fin 4 => bq p.1 p.2 := by
  rw [Fintype.bijective_iff_injective_and_card]
  refine ⟨?_, by simp⟩
  rintro ⟨q, b⟩ ⟨q', b'⟩ h
  have h1 : 4 * q.val + b.val = 4 * q'.val + b'.val := by simpa [bq, Fin.ext_iff] using h
  have hq : q = q' := Fin.ext (by omega)
  have hb : b = b' := Fin.ext (by omega)
  rw [hq, hb]

private theorem knlt_bijective :
    Function.Bijective fun p : Fin 64 × Fin 4096 => (kn p.1, lt (kt p.1) p.2) := by
  rw [Fintype.bijective_iff_injective_and_card]
  refine ⟨?_, by simp⟩
  rintro ⟨k, l⟩ ⟨k', l'⟩ h
  have h1 : k.val / 2 = k'.val / 2 ∧ 4096 * (k.val % 2) + l.val = 4096 * (k'.val % 2) + l'.val := by
    simpa [kn, kt, lt, Fin.ext_iff] using h
  have hk : k = k' := Fin.ext (by omega)
  have hl : l = l' := Fin.ext (by omega)
  rw [hk, hl]

private theorem sum_bq (f : Fin 32 → ℝ) : ∑ q : Fin 8, ∑ b : Fin 4, f (bq q b) = ∑ n : Fin 32, f n :=
  (Fintype.sum_prod_type' fun q b => f (bq q b)).symm.trans
    (Fintype.sum_bijective _ bq_bijective _ _ fun _ => rfl)

private theorem sum_knlt (f : Fin 32 → Fin 8192 → ℝ) :
    ∑ k : Fin 64, ∑ l : Fin 4096, f (kn k) (lt (kt k) l) = ∑ n : Fin 32, ∑ l : Fin 8192, f n l :=
  ((Fintype.sum_prod_type' fun k l => f (kn k) (lt (kt k) l)).symm.trans
    (Fintype.sum_bijective _ knlt_bijective _ (fun p => f p.1 p.2) fun _ => rfl)).trans
    (Fintype.sum_prod_type' f)

/-! ## The two statistics identities over the reals -/

/-- The weighted channel sums are the sum of pre: sum_c w c (sum_{n, l} x n c l) = sum_{n, l} sum_c w c x n c l. -/
private theorem mean_id (w : Fin 128 → ℝ) (x : Fin 32 → Fin 128 → Fin 8192 → ℝ) :
    ∑ c, w c * ∑ n, ∑ l, x n c l = ∑ n, ∑ l, ∑ c, w c * x n c l :=
  calc ∑ c, w c * ∑ n, ∑ l, x n c l
      = ∑ c, ∑ n, ∑ l, w c * x n c l := by simp only [Finset.mul_sum]
    _ = ∑ n, ∑ c, ∑ l, w c * x n c l := Finset.sum_comm
    _ = ∑ n, ∑ l, ∑ c, w c * x n c l := Finset.sum_congr rfl fun n _ => Finset.sum_comm

/-- The Gram matrix between two copies of w is the sum of pre^2:
    sum_c (sum_c' w c' G c' c) w c = sum_{n, l} (sum_c w c x n c l)^2 for G c' c = sum_{n, l} x n c' l x n c l. -/
private theorem ex2_id (w : Fin 128 → ℝ) (x : Fin 32 → Fin 128 → Fin 8192 → ℝ) :
    ∑ c, (∑ c', w c' * ∑ n, ∑ l, x n c' l * x n c l) * w c
      = ∑ n, ∑ l, (∑ c, w c * x n c l) * (∑ c, w c * x n c l) :=
  calc ∑ c, (∑ c', w c' * ∑ n, ∑ l, x n c' l * x n c l) * w c
      = ∑ c, ∑ c', ∑ n, ∑ l, (w c * x n c l) * (w c' * x n c' l) := by
        simp only [Finset.mul_sum, Finset.sum_mul]
        exact Finset.sum_congr rfl fun c _ => Finset.sum_congr rfl fun c' _ =>
          Finset.sum_congr rfl fun n _ => Finset.sum_congr rfl fun l _ => by ring
    _ = ∑ c, ∑ n, ∑ c', ∑ l, (w c * x n c l) * (w c' * x n c' l) :=
        Finset.sum_congr rfl fun c _ => Finset.sum_comm
    _ = ∑ n, ∑ c, ∑ c', ∑ l, (w c * x n c l) * (w c' * x n c' l) := Finset.sum_comm
    _ = ∑ n, ∑ c, ∑ l, ∑ c', (w c * x n c l) * (w c' * x n c' l) :=
        Finset.sum_congr rfl fun n _ => Finset.sum_congr rfl fun c _ => Finset.sum_comm
    _ = ∑ n, ∑ l, ∑ c, ∑ c', (w c * x n c l) * (w c' * x n c' l) :=
        Finset.sum_congr rfl fun n _ => Finset.sum_comm
    _ = ∑ n, ∑ l, (∑ c, w c * x n c l) * (∑ c, w c * x n c l) :=
        Finset.sum_congr rfl fun n _ => Finset.sum_congr rfl fun l _ => (Finset.sum_mul_sum _ _ _ _).symm

/-- The kernel's chunked channel sums, weighted, are the sum of pre. -/
private theorem kmean_real (w : Fin 128 → ℝ) (x : Fin 32 → Fin 128 → Fin 8192 → ℝ) :
    ∑ c, w c * ∑ q : Fin 8, ∑ b : Fin 4, ∑ l, x (bq q b) c l = ∑ n, ∑ l, ∑ c, w c * x n c l := by
  rw [← mean_id]
  exact Finset.sum_congr rfl fun c _ => congrArg (w c * ·) (sum_bq fun n => ∑ l, x n c l)

/-- The kernel's chunked Gram matrices, between two copies of w, are the sum of pre^2. -/
private theorem kex2_real (w : Fin 128 → ℝ) (x : Fin 32 → Fin 128 → Fin 8192 → ℝ) :
    ∑ c, (∑ c', w c' * ∑ q : Fin 8, ∑ b : Fin 4, ∑ l, x (bq q b) c' l * x (bq q b) c l) * w c
      = ∑ n, ∑ l, (∑ c, w c * x n c l) * (∑ c, w c * x n c l) := by
  rw [← ex2_id]
  exact Finset.sum_congr rfl fun c _ => congrArg (· * w c) (Finset.sum_congr rfl fun c' _ =>
    congrArg (w c' * ·) (sum_bq fun n => ∑ l, x n c' l * x n c l))

/-! ## Both sides' statistics as coerced reals -/

section Real

variable (xr : Fin 32 → Fin 128 → Fin 8192 → ℝ) (w1r : Fin 512 → Fin 128 → ℝ) (γr βr : Fin 512 → ℝ)

/-- pre, its mean, the mean of its square, the variance, the scale and the shift, over the reals. -/
private def preR (n : Fin 32) (h : Fin 512) (l : Fin 8192) : ℝ := ∑ c, w1r h c * xr n c l

private def meanR (h : Fin 512) : ℝ := (∑ n, ∑ l, preR xr w1r n h l) * (1 / 262144)

private def ex2R (h : Fin 512) : ℝ := (∑ n, ∑ l, preR xr w1r n h l * preR xr w1r n h l) * (1 / 262144)

private def varR (h : Fin 512) : ℝ := max (ex2R xr w1r h - meanR xr w1r h * meanR xr w1r h) 0

private def scaleR (h : Fin 512) : ℝ := γr h * (Real.sqrt (varR xr w1r h + epsR))⁻¹

private def shiftR (h : Fin 512) : ℝ := βr h - meanR xr w1r h * scaleR xr w1r γr h

private theorem rPre_coe (n : Fin 32) (h : Fin 512) (l : Fin 8192) :
    rPre (fun n c l => (xr n c l : EReal)) (fun h c => (w1r h c : EReal)) n h l
      = ((preR xr w1r n h l : ℝ) : EReal) := by
  simp only [rPre, preR, coe_sum, EReal.coe_mul]

private theorem kMean_coe (h : Fin 512) :
    kMean (fun h c => (w1r h c : EReal)) (kSx fun n c l => (xr n c l : EReal)) h
      = ((meanR xr w1r h : ℝ) : EReal) := by
  have hs : ∀ c, (∑ q : Fin 8, kSx (fun n c l => (xr n c l : EReal)) q c)
      = ((∑ q : Fin 8, ∑ b : Fin 4, ∑ l, xr (bq q b) c l : ℝ) : EReal) := fun c => by
    simp only [kSx, coe_sum]
  simp only [kMean, hs, k18_eq, ← EReal.coe_mul, ← coe_sum]
  rw [EReal.coe_eq_coe_iff]
  exact congrArg (· * (1 / 262144)) (kmean_real (w1r h) xr)

private theorem kEx2_coe (h : Fin 512) :
    kEx2 (fun h c => (w1r h c : EReal)) (kGram fun n c l => (xr n c l : EReal)) h
      = ((ex2R xr w1r h : ℝ) : EReal) := by
  have hg : ∀ c' c, (∑ q : Fin 8, kGram (fun n c l => (xr n c l : EReal)) q c' c)
      = ((∑ q : Fin 8, ∑ b : Fin 4, ∑ l, xr (bq q b) c' l * xr (bq q b) c l : ℝ) : EReal) := fun c' c => by
    simp only [kGram, coe_sum, EReal.coe_mul]
  simp only [kEx2, hg, k18_eq, ← EReal.coe_mul, ← coe_sum]
  rw [EReal.coe_eq_coe_iff]
  exact congrArg (· * (1 / 262144)) (kex2_real (w1r h) xr)

private theorem rMean_coe (h : Fin 512) :
    rMean (rPs (fun n c l => (xr n c l : EReal)) fun h c => (w1r h c : EReal)) h
      = ((meanR xr w1r h : ℝ) : EReal) := by
  simp only [rMean, rPs, rPre_coe, n18_eq, Ideal.div_coe (show (262144 : ℝ) ≠ 0 by norm_num),
    ← coe_sum, ← EReal.coe_mul]
  rw [EReal.coe_eq_coe_iff]
  exact congrArg (· * (1 / 262144)) (sum_knlt fun n l => preR xr w1r n h l)

private theorem rEx2_coe (h : Fin 512) :
    Ideal.div (∑ k : Fin 64, rPss (fun n c l => (xr n c l : EReal)) (fun h c => (w1r h c : EReal)) k h) n18
      = ((ex2R xr w1r h : ℝ) : EReal) := by
  simp only [rPss, rPre_coe, n18_eq, Ideal.div_coe (show (262144 : ℝ) ≠ 0 by norm_num),
    ← coe_sum, ← EReal.coe_mul]
  rw [EReal.coe_eq_coe_iff]
  exact congrArg (· * (1 / 262144)) (sum_knlt fun n l => preR xr w1r n h l * preR xr w1r n h l)

private theorem kVar_coe (h : Fin 512) :
    kVar (fun h c => (w1r h c : EReal)) (kGram fun n c l => (xr n c l : EReal))
        (kSx fun n c l => (xr n c l : EReal)) h
      = ((varR xr w1r h : ℝ) : EReal) := by
  rw [kVar, kEx2_coe, kMean_coe, varR, coe_max, EReal.coe_sub, EReal.coe_mul, EReal.coe_zero]

private theorem rVar_coe (h : Fin 512) :
    rVar (rPs (fun n c l => (xr n c l : EReal)) fun h c => (w1r h c : EReal))
        (rPss (fun n c l => (xr n c l : EReal)) fun h c => (w1r h c : EReal)) h
      = ((varR xr w1r h : ℝ) : EReal) := by
  rw [rVar, rEx2_coe, rMean_coe, varR, coe_max, EReal.coe_sub, EReal.coe_mul, EReal.coe_zero]

/-- The variance is at least 0 and epsilon is positive, so the reciprocal square root is taken of a positive real. -/
private theorem rsqrt_var (h : Fin 512) :
    Ideal.rsqrt (((varR xr w1r h : ℝ) : EReal) + eps)
      = (((Real.sqrt (varR xr w1r h + epsR))⁻¹ : ℝ) : EReal) := by
  have hpos : 0 < varR xr w1r h + epsR := add_pos_of_nonneg_of_pos (le_max_right _ _) epsR_pos
  rw [eps_eq, ← EReal.coe_add, Ideal.rsqrt_coe, if_neg (not_lt.2 hpos.le), if_neg hpos.ne']

private theorem kScale_coe (h : Fin 512) :
    kScale (fun h c => (w1r h c : EReal)) (kGram fun n c l => (xr n c l : EReal))
        (kSx fun n c l => (xr n c l : EReal)) (fun h => (γr h : EReal)) h
      = ((scaleR xr w1r γr h : ℝ) : EReal) := by
  rw [kScale, kVar_coe, rsqrt_var, scaleR, EReal.coe_mul]

private theorem rScale_coe (h : Fin 512) :
    rScale (rPs (fun n c l => (xr n c l : EReal)) fun h c => (w1r h c : EReal))
        (rPss (fun n c l => (xr n c l : EReal)) fun h c => (w1r h c : EReal)) (fun h => (γr h : EReal)) h
      = ((scaleR xr w1r γr h : ℝ) : EReal) := by
  rw [rScale, rVar_coe, rsqrt_var, scaleR, EReal.coe_mul]

private theorem kShift_coe (h : Fin 512) :
    kShift (fun h c => (w1r h c : EReal)) (kGram fun n c l => (xr n c l : EReal))
        (kSx fun n c l => (xr n c l : EReal)) (fun h => (γr h : EReal)) (fun h => (βr h : EReal)) h
      = ((shiftR xr w1r γr βr h : ℝ) : EReal) := by
  rw [kShift, kMean_coe, kScale_coe, shiftR, EReal.coe_sub, EReal.coe_mul]

private theorem rShift_coe (h : Fin 512) :
    rShift (rPs (fun n c l => (xr n c l : EReal)) fun h c => (w1r h c : EReal))
        (rPss (fun n c l => (xr n c l : EReal)) fun h c => (w1r h c : EReal)) (fun h => (γr h : EReal))
        (fun h => (βr h : EReal)) h
      = ((shiftR xr w1r γr βr h : ℝ) : EReal) := by
  rw [rShift, rMean_coe, rScale_coe, shiftR, EReal.coe_sub, EReal.coe_mul]

/-- Folding a scale into the weights before the product is scaling pre after it. -/
private theorem hid_real (s : ℝ) (n : Fin 32) (h : Fin 512) (l : Fin 8192) :
    ∑ c, (w1r h c * s) * xr n c l = preR xr w1r n h l * s := by
  rw [preR, Finset.sum_mul]
  exact Finset.sum_congr rfl fun c _ => by ring

end Real

/-- For real inputs the kernel's output function, fed its own partial Gram matrices and channel sums, is the
    reference's, fed the scale and shift its host fold makes of its own partial sums. -/
theorem kOut_eq_rOut (xr : Fin 32 → Fin 128 → Fin 8192 → ℝ) (w1r : Fin 512 → Fin 128 → ℝ) (γr βr : Fin 512 → ℝ)
    (w2 : Fin 256 → Fin 512 → EReal) (n : Fin 32) (o : Fin 256) (l : Fin 8192) :
    kOut (fun n c l => (xr n c l : EReal)) (fun h c => (w1r h c : EReal)) w2
        (kGram fun n c l => (xr n c l : EReal)) (kSx fun n c l => (xr n c l : EReal))
        (fun h => (γr h : EReal)) (fun h => (βr h : EReal)) n o l
      = rOut (fun n c l => (xr n c l : EReal)) (fun h c => (w1r h c : EReal)) w2
          (rScale (rPs (fun n c l => (xr n c l : EReal)) fun h c => (w1r h c : EReal))
            (rPss (fun n c l => (xr n c l : EReal)) fun h c => (w1r h c : EReal)) fun h => (γr h : EReal))
          (rShift (rPs (fun n c l => (xr n c l : EReal)) fun h c => (w1r h c : EReal))
            (rPss (fun n c l => (xr n c l : EReal)) fun h c => (w1r h c : EReal)) (fun h => (γr h : EReal))
            fun h => (βr h : EReal)) n o l := by
  unfold kOut rOut
  refine Finset.sum_congr rfl fun h _ => congrArg (w2 o h * ·) ?_
  simp only [kHid, rHid, kScale_coe, kShift_coe, rScale_coe, rShift_coe, rPre_coe,
    ← EReal.coe_mul, ← coe_sum, ← EReal.coe_add]
  rw [hid_real]

end Cert.Mlp

end
-- ==== Proof.Finite.lean ====
import proofs.«132259_g2000306565302007_pallasbulk_1216_5_alg».proof.Pre_finite_inputs
import proofs.«132259_g2000306565302007_pallasbulk_1216_5_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic Cert.Pre_finite_inputs

/-- The scalar shape has one index. -/
local instance : Subsingleton S_.Idx := ⟨fun a b => funext fun d => d.elim0⟩

/-- The word 0x7F800000 denotes +∞. -/
private theorem inf_word : Ideal.ofBits .f32 0x7F800000#32 = (⊤ : EReal) := by
  simp [Ideal.ofBits, Ideal.ieee]

/-- An extended real whose absolute value max x (-x) is strictly below +∞ is a real number:
    at ⊥ and at ⊤ the absolute value is ⊤. -/
private theorem real_of_abs_lt_top (x : EReal) (h : Ideal.cmp .olt (max x (-x)) (⊤ : EReal) = 1#1) :
    ∃ r : ℝ, x = (r : EReal) := by
  induction x using EReal.rec with
  | bot => simp [Ideal.cmp] at h
  | top => simp [Ideal.cmp] at h
  | coe r => exact ⟨r, rfl⟩

/-- One all-reduction of |a| < +∞ that came out true: every entry of a is a real. -/
private theorem reals_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf a)
        (broadcastInDim s ![] hb (constant (F := Ideal) S_ .f32 0x7F800000#32))) init hr hu ValueIdx.ix0 = 1#1) :
    ∀ i, ∃ r : ℝ, a i = (r : EReal) := by
  intro i
  have hi := Host.reduce_andi_all _ init hr hu _ e i
  refine real_of_abs_lt_top (a i) ?_
  rw [← inf_word]
  exact hi

/-- Where the precondition holds, every entry of the input, of the first weight and of the two batch-norm
    vectors is a real number. -/
theorem reals_of_pre (a0 : FVec Ideal S32x128x8192 .f32) (a1 : FVec Ideal S512x128 .f32) (a2 a3 : FVec Ideal S512 .f32)
    (a4 : FVec Ideal S256x512 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1] at h0
  obtain ⟨h0123, _⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨reals_of_all a0 _ _ _ _ e0, reals_of_all a1 _ _ _ _ e1, reals_of_all a2 _ _ _ _ e2,
    reals_of_all a3 _ _ _ _ e3⟩

end Cert.Finite

end
-- ==== Proof.lean ====
/-
  The certificate of a two-layer network over positions with a batch normalisation between the layers:
      out = w2 · relu (batchnorm (w1 · x)),  x of 32 items by 128 channels by 8192 positions.
  The reference forms the first product explicitly, sums it and its square per chunk in a first launch, folds
  mean, variance, scale and shift on the host, and applies them in a second launch. The kernel never forms the
  first product for the statistics: its first launch accumulates the Gram matrix of x over positions and the channel
  sums, its second launch derives the same mean and variance from them (the sums are linear, the sums of squares
  bilinear, in x), folds the scale into the first weight, and applies.

  The three frames are the generated frame certificates. For the value claim each program's run is read back
  through its segment boundaries to one index-by-index function of the launched arrays (Proof/KChain.lean,
  Proof/RChain.lean over the per-region value lemmas), and the two functions agree when the input, the first weight,
  gamma and beta are real (Proof/Algebra.lean): the rearrangement of the sums is distributivity, which the
  infinities break, so the precondition is used (Proof/Finite.lean). The second weight needs no finiteness: both
  sides multiply the same hidden value by it.
-/
import proofs.«132259_g2000306565302007_pallasbulk_1216_5_alg».proof.Defs
import proofs.«132259_g2000306565302007_pallasbulk_1216_5_alg».proof.Proof.Gen.Kernel
import proofs.«132259_g2000306565302007_pallasbulk_1216_5_alg».proof.Proof.Gen.Kernel.Skeleton
import proofs.«132259_g2000306565302007_pallasbulk_1216_5_alg».proof.Proof.Gen.Kernel.Launch
import proofs.«132259_g2000306565302007_pallasbulk_1216_5_alg».proof.Proof.Gen.Kernel.Points
import proofs.«132259_g2000306565302007_pallasbulk_1216_5_alg».proof.Proof.Gen.Kernel.Frame
import proofs.«132259_g2000306565302007_pallasbulk_1216_5_alg».proof.Proof.Gen.KernelIdeal
import proofs.«132259_g2000306565302007_pallasbulk_1216_5_alg».proof.Proof.Gen.KernelIdeal.Skeleton
import proofs.«132259_g2000306565302007_pallasbulk_1216_5_alg».proof.Proof.Gen.KernelIdeal.Launch
import proofs.«132259_g2000306565302007_pallasbulk_1216_5_alg».proof.Proof.Gen.KernelIdeal.Points
import proofs.«132259_g2000306565302007_pallasbulk_1216_5_alg».proof.Proof.Gen.KernelIdeal.Frame
import proofs.«132259_g2000306565302007_pallasbulk_1216_5_alg».proof.Proof.Gen.ReferenceIdeal
import proofs.«132259_g2000306565302007_pallasbulk_1216_5_alg».proof.Proof.Gen.ReferenceIdeal.Skeleton
import proofs.«132259_g2000306565302007_pallasbulk_1216_5_alg».proof.Proof.Gen.ReferenceIdeal.Launch
import proofs.«132259_g2000306565302007_pallasbulk_1216_5_alg».proof.Proof.Gen.ReferenceIdeal.Points
import proofs.«132259_g2000306565302007_pallasbulk_1216_5_alg».proof.Proof.Gen.ReferenceIdeal.Frame
import proofs.«132259_g2000306565302007_pallasbulk_1216_5_alg».proof.Proof.Gen.Pre_finite_inputs
import Idealize.ShloMosaic.Adequacy
import Idealize.ShloMosaic.Init
import proofs.«132259_g2000306565302007_pallasbulk_1216_5_alg».proof.Proof.KChain
import proofs.«132259_g2000306565302007_pallasbulk_1216_5_alg».proof.Proof.RChain
import proofs.«132259_g2000306565302007_pallasbulk_1216_5_alg».proof.Proof.Algebra
import proofs.«132259_g2000306565302007_pallasbulk_1216_5_alg».proof.Proof.Finite
import Idealize.ShloMosaic.Lib.ValueIdx

set_option maxRecDepth 16384

noncomputable section

namespace Cert.Proof

open Idealize.ShloMosaic Idealize.ShloMosaic.ValueIdx Idealize.SL.Sem

/-- The two idealized programs, from memories that agree on the arguments, end with equal results: each result is
    its side's output function of the launched arrays, and for real inputs the two functions are one. -/
theorem algebraic : Cert.algebraic_KernelIdeal_ReferenceIdeal := by
  intro m ρ m' ρ' hpre hagree
  refine ⟨fun c => fun i => Cert.Mlp.kOut (fun n ch l => m ((c.tc : Thread Cert.KernelIdeal.nD Cert.KernelIdeal.τ).loc Cert.KernelIdeal.main_arg0) (ix3 n ch l))
      (fun h ch => m ((c.tc : Thread Cert.KernelIdeal.nD Cert.KernelIdeal.τ).loc Cert.KernelIdeal.main_arg1) (ix2 h ch))
      (fun o h => m ((c.tc : Thread Cert.KernelIdeal.nD Cert.KernelIdeal.τ).loc Cert.KernelIdeal.main_arg4) (ix2 o h))
      (Cert.Mlp.kGram fun n ch l => m ((c.tc : Thread Cert.KernelIdeal.nD Cert.KernelIdeal.τ).loc Cert.KernelIdeal.main_arg0) (ix3 n ch l))
      (Cert.Mlp.kSx fun n ch l => m ((c.tc : Thread Cert.KernelIdeal.nD Cert.KernelIdeal.τ).loc Cert.KernelIdeal.main_arg0) (ix3 n ch l))
      (fun h => m ((c.tc : Thread Cert.KernelIdeal.nD Cert.KernelIdeal.τ).loc Cert.KernelIdeal.main_arg2) (ix1 h))
      (fun h => m ((c.tc : Thread Cert.KernelIdeal.nD Cert.KernelIdeal.τ).loc Cert.KernelIdeal.main_arg3) (ix1 h)) (i 0) (i 1) (i 2),
    Cert.KernelIdeal.Val.run_spec m ρ, ?_⟩
  refine (θ_run Cert.ReferenceIdeal.defs _ _).mono (fun r h c => ⟨(h c).1.trans ?_, (h c).2⟩)
    (Cert.ReferenceIdeal.Val.run_spec m' ρ')
  obtain ⟨h0, h1, h2, h3, h4⟩ := hagree c
  obtain ⟨r0, r1, r2, r3⟩ := Cert.Finite.reals_of_pre _ _ _ _ _ (hpre c)
  choose xr hx using r0
  choose w1r hw1 using r1
  choose γr hγ using r2
  choose βr hβ using r3
  have ex : m ((c.tc : Thread Cert.KernelIdeal.nD Cert.KernelIdeal.τ).loc Cert.KernelIdeal.main_arg0) = fun i => (xr i : EReal) := funext hx
  have ew1 : m ((c.tc : Thread Cert.KernelIdeal.nD Cert.KernelIdeal.τ).loc Cert.KernelIdeal.main_arg1) = fun i => (w1r i : EReal) := funext hw1
  have eγ : m ((c.tc : Thread Cert.KernelIdeal.nD Cert.KernelIdeal.τ).loc Cert.KernelIdeal.main_arg2) = fun i => (γr i : EReal) := funext hγ
  have eβ : m ((c.tc : Thread Cert.KernelIdeal.nD Cert.KernelIdeal.τ).loc Cert.KernelIdeal.main_arg3) = fun i => (βr i : EReal) := funext hβ
  funext i
  show Cert.Mlp.rOut _ _ _ _ _ (i 0) (i 1) (i 2) = Cert.Mlp.kOut _ _ _ _ _ _ _ (i 0) (i 1) (i 2)
  rw [h0, h1, h2, h3, h4, ex, ew1, eγ, eβ]
  exact (Cert.Mlp.kOut_eq_rOut (fun n ch l => xr (ix3 n ch l)) (fun h ch => w1r (ix2 h ch)) (fun h => γr (ix1 h))
    (fun h => βr (ix1 h)) (fun o h => m ((c.tc : Thread Cert.KernelIdeal.nD Cert.KernelIdeal.τ).loc Cert.KernelIdeal.main_arg4) (ix2 o h)) (i 0) (i 1) (i 2)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
